-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x128 : Shape := ⟨3, ![8, 1024, 128]⟩
abbrev S1024x1024 : Shape := ⟨2, ![1024, 1024]⟩
abbrev S_ : Shape := ⟨0, ![]⟩

class Facts : Prop where
  bcast_S_S8x1024x128 : S_.BroadcastsInDim S8x1024x128 (![] : Fin 0 → Fin S8x1024x128.rank)
  reducesTo_S8x1024x128_S_d0_1_2 : S8x1024x128.ReducesTo [0, 1, 2] S_
  h_S_ : 0 < S_.numel

variable [Facts]

def fn {F : FTy → Type} [FloatOps F] (main_arg0 : FVec F S8x1024x128 .f32) (main_arg1 : IVec S1024x1024 32) : IVec S_ 1 :=
  let main_v0 : FVec F S8x1024x128 .f32 := Host.absf main_arg0
  let main_cst : FVec F S_ .f32 := constant S_ .f32 0x7F800000#32
  let main_v1 : FVec F S8x1024x128 .f32 := broadcastInDim S8x1024x128 ![] bcast_S_S8x1024x128 main_cst
  let main_v2 : IVec S8x1024x128 1 := cmpf .olt main_v0 main_v1
  let main_c : IVec S_ 1 := constantI S_ 1 1#1
  let main_v3 : IVec S_ 1 := (fun x v => Host.reduce IntOp.andi x v reducesTo_S8x1024x128_S_d0_1_2 h_S_) main_v2 main_c
  main_v3
-- ==== Kernel.lean ====
abbrev S8x1024x128 : Shape := ⟨3, ![8, 1024, 128]⟩
abbrev S1024x1024 : Shape := ⟨2, ![1024, 1024]⟩
abbrev S1x256x128 : Shape := ⟨3, ![1, 256, 128]⟩
abbrev S1x1024x128 : Shape := ⟨3, ![1, 1024, 128]⟩
abbrev S256x128 : Shape := ⟨2, ![256, 128]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩
abbrev S1024x8x128 : Shape := ⟨3, ![1024, 8, 128]⟩
abbrev S1024x8x8 : Shape := ⟨3, ![1024, 8, 8]⟩
abbrev S_ : Shape := ⟨0, ![]⟩
abbrev S8x8x1024 : Shape := ⟨3, ![8, 8, 1024]⟩
abbrev S8x8x1024x1 : Shape := ⟨4, ![8, 8, 1024, 1]⟩
abbrev S8192x8192 : Shape := ⟨2, ![8192, 8192]⟩
abbrev S2x1x1024x1 : Shape := ⟨4, ![2, 1, 1024, 1]⟩
abbrev S2048x1024 : Shape := ⟨2, ![2048, 1024]⟩
abbrev S1x1x1024x1 : Shape := ⟨4, ![1, 1, 1024, 1]⟩
abbrev S1024x1 : Shape := ⟨2, ![1024, 1]⟩

abbrev nBuf : Space → Nat
  | .hbm => 12
  | .vmem => 11
  | .smem => 0
  | _ => 0

abbrev bufTy : (tb : Table) → Fin (tcTables nBuf tb) → BufTy
  | .hbm, ⟨0, _⟩ => ⟨S8x1024x128, .f32⟩
  | .hbm, ⟨1, _⟩ => ⟨S1024x1024, .i32⟩
  | .hbm, ⟨2, _⟩ => ⟨S8x1024x128, .bf16⟩
  | .hbm, ⟨3, _⟩ => ⟨S8x1024x128, .f32⟩
  | .hbm, ⟨4, _⟩ => ⟨S1024x8x128, .f32⟩
  | .hbm, ⟨5, _⟩ => ⟨S1024x8x8, .f32⟩
  | .hbm, ⟨6, _⟩ => ⟨S_, .f32⟩
  | .hbm, ⟨7, _⟩ => ⟨S1024x8x8, .f32⟩
  | .hbm, ⟨8, _⟩ => ⟨S1024x8x8, .f32⟩
  | .hbm, ⟨9, _⟩ => ⟨S8x8x1024, .f32⟩
  | .hbm, ⟨10, _⟩ => ⟨S8x8x1024x1, .f32⟩
  | .hbm, ⟨11, _⟩ => ⟨S8192x8192, .f32⟩
  | .local _ .vmem, ⟨0, _⟩ => ⟨S1x256x128, .bf16⟩
  | .local _ .vmem, ⟨1, _⟩ => ⟨S1x256x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1024x1024, .i32⟩
  | .local _ .vmem, ⟨5, _⟩ => ⟨S1x256x128, .f32⟩
  | .local _ .vmem, ⟨6, _⟩ => ⟨S1x256x128, .f32⟩
  | .local _ .vmem, ⟨7, _⟩ => ⟨S2x1x1024x1, .f32⟩
  | .local _ .vmem, ⟨8, _⟩ => ⟨S2x1x1024x1, .f32⟩
  | .local _ .vmem, ⟨9, _⟩ => ⟨S2048x1024, .f32⟩
  | .local _ .vmem, ⟨10, _⟩ => ⟨S2048x1024, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v9 : Index := Scalar.indexCast v1
  let c0_6 : Index := 0#32
  ![v9.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2x1x1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  bitsLt_bf16_f32 : FTy.bits .bf16 < FTy.bits .f32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  h_S256x1024 : 0 < S256x1024.numel
  reduces_S256x1024_S256 : S256x1024.Reduces [1] S256
  shapeCasts_S256_S256x1 : S256.ShapeCasts S256x1
  broadcasts_S256x1_S256x1024 : S256x1.Broadcasts S256x1024
  shapeCasts_S256x128_S1x256x128 : S256x128.ShapeCasts S1x256x128
  transposes_S8x1024x128_S1024x8x128_1_0_2 : S8x1024x128.Transposes [1, 0, 2] S1024x8x128
  bcast_S_S1024x8x8 : S_.BroadcastsInDim S1024x8x8 (![] : Fin 0 → Fin S1024x8x8.rank)
  transposes_S1024x8x8_S8x8x1024_2_1_0 : S1024x8x8.Transposes [2, 1, 0] S8x8x1024
  bcast_S8x8x1024_S8x8x1024x1_0_1_2 : S8x8x1024.BroadcastsInDim S8x8x1024x1 (![0, 1, 2] : Fin 3 → Fin S8x8x1024x1.rank)
  inb_S2x1x1024x1_S1x1x1024x1_0_0_0_0 : ∀ a, (![0, 0, 0, 0] : Fin 4 → Nat) a + S1x1x1024x1.size a ≤ S2x1x1024x1.size a
  h_S1x1x1024x1 : 0 < S1x1x1024x1.numel
  shapeCasts_S1x1x1024x1_S1024x1 : S1x1x1024x1.ShapeCasts S1024x1
  inb_S2x1x1024x1_S1x1x1024x1_1_0_0_0 : ∀ a, (![1, 0, 0, 0] : Fin 4 → Nat) a + S1x1x1024x1.size a ≤ S2x1x1024x1.size a
  shapeCasts_S1024x1_S1024x1 : S1024x1.ShapeCasts S1024x1
  broadcasts_S1024x1_S1024x1024 : S1024x1.Broadcasts S1024x1024
  inb_S2048x1024_S1024x1024_0_0 : ∀ a, (![0, 0] : Fin 2 → Nat) a + S1024x1024.size a ≤ S2048x1024.size a
  h_S1024x1024 : 0 < S1024x1024.numel
  inb_S2048x1024_S1024x1024_1024_0 : ∀ a, (![1024, 0] : Fin 2 → Nat) a + S1024x1024.size a ≤ S2048x1024.size a
  dot_S256x128_S1024x128_S256x1024_1_1_0_0_n_n_wf : DotDims.WF S256x128 S1024x128 S256x1024 [1] [1] [0] [0] [] []
  dot_S256x1024_S1024x128_S256x128_1_0_0_1_n_n_wf : DotDims.WF S256x1024 S1024x128 S256x128 [1] [0] [0] [1] [] []
  dot_S1024x8x128_S1024x8x128_S1024x8x8_2_2_1_1_0_0_wf : DotDims.WF S1024x8x128 S1024x8x128 S1024x8x8 [2] [2] [1] [1] [0] [0]
  hrank0 : 0 < grid0.rank
  k0_mult1_dvd : ∀ i : grid0.Coords, 256 ∣ (k0_mult1 i).toNat
  k0_off1_inb : ∀ i : grid0.Coords, ∀ a, (k0_off1 i) a + S256x1024.size a ≤ S1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S8x1024x128.size a
  hwx0_0 : ∀ i : grid0.Coords, EltTy.bits .bf16 = 32 ∨ (Rect.block (s := S8x1024x128) S1x256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x1024x128.size a
  hwx0_1 : ∀ i : grid0.Coords, EltTy.bits .bf16 = 32 ∨ (Rect.block (s := S8x1024x128) S1x1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .i32 = 32 ∨ (Rect.block (s := S1024x1024) S1024x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S8x1024x128.size a
  hwx0_3 : ∀ i : grid0.Coords, EltTy.bits .f32 = 32 ∨ (Rect.block (s := S8x1024x128) S1x256x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1x1024x1.size a ≤ S8x8x1024x1.size a
  hwx1_0 : ∀ i : grid1.Coords, EltTy.bits .f32 = 32 ∨ (Rect.block (s := S8x8x1024x1) S2x1x1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x8192.size a
  hwx1_1 : ∀ i : grid1.Coords, EltTy.bits .f32 = 32 ∨ (Rect.block (s := S8192x8192) S2048x1024.size (cc1_transform_1 i) (hinb1_1 i)).WholeWords (EltTy.packing .f32)

variable [Facts₀]

def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S1024x8x128_S1024x8x128_S1024x8x8_2_2_1_1_0_0 : DotDims S1024x8x128 S1024x8x128 S1024x8x8 where
  lhsContracting := [2]
  rhsContracting := [2]
  lhsNonContracting := [1]
  rhsNonContracting := [1]
  lhsBatch := [0]
  rhsBatch := [0]
  wf := dot_S1024x8x128_S1024x8x128_S1024x8x8_2_2_1_1_0_0_wf

abbrev win0_0 : Pipeline.Window sig grid0 :=
  Pipeline.Window.ofSpec (Memref.whole main_v0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S2x1x1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2048x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x1024x128 : Shape := ⟨3, ![8, 1024, 128]⟩
abbrev S1024x1024 : Shape := ⟨2, ![1024, 1024]⟩
abbrev S8x1024x1024 : Shape := ⟨3, ![8, 1024, 1024]⟩
abbrev S_ : Shape := ⟨0, ![]⟩
abbrev S1x1024x1024 : Shape := ⟨3, ![1, 1024, 1024]⟩
abbrev S8x1024 : Shape := ⟨2, ![8, 1024]⟩
abbrev S8x1024x1 : Shape := ⟨3, ![8, 1024, 1]⟩
abbrev S1024x8x128 : Shape := ⟨3, ![1024, 8, 128]⟩
abbrev S1024x8x8 : Shape := ⟨3, ![1024, 8, 8]⟩
abbrev S1x1024x8x8 : Shape := ⟨4, ![1, 1024, 8, 8]⟩
abbrev S1024x1024x8x8 : Shape := ⟨4, ![1024, 1024, 8, 8]⟩
abbrev S8x1024x8x1024 : Shape := ⟨4, ![8, 1024, 8, 1024]⟩
abbrev S8192x8192 : Shape := ⟨2, ![8192, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S1024x1024, .i32⟩
  | .hbm, ⟨2, _⟩ => ⟨S8x1024x1024, .f32⟩
  | .hbm, ⟨3, _⟩ => ⟨S_, .f32⟩
  | .hbm, ⟨4, _⟩ => ⟨S8x1024x1024, .f32⟩
  | .hbm, ⟨5, _⟩ => ⟨S8x1024x1024, .f32⟩
  | .hbm, ⟨6, _⟩ => ⟨S1x1024x1024, .i32⟩
  | .hbm, ⟨7, _⟩ => ⟨S_, .i32⟩
  | .hbm, ⟨8, _⟩ => ⟨S1x1024x1024, .i32⟩
  | .hbm, ⟨9, _⟩ => ⟨S1x1024x1024, .i1⟩
  | .hbm, ⟨10, _⟩ => ⟨S_, .f32⟩
  | .hbm, ⟨11, _⟩ => ⟨S8x1024x1024, .i1⟩
  | .hbm, ⟨12, _⟩ => ⟨S8x1024x1024, .f32⟩
  | .hbm, ⟨13, _⟩ => ⟨S8x1024x1024, .f32⟩
  | .hbm, ⟨14, _⟩ => ⟨S_, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S8x1024x1, .f32⟩
  | .hbm, ⟨20, _⟩ => ⟨S8x1024x1024, .f32⟩
  | .hbm, ⟨21, _⟩ => ⟨S8x1024x1024, .f32⟩
  | .hbm, ⟨22, _⟩ => ⟨S8x1024x1024, .f32⟩
  | .hbm, ⟨23, _⟩ => ⟨S_, .f32⟩
  | .hbm, ⟨24, _⟩ => ⟨S8x1024, .f32⟩
  | .hbm, ⟨25, _⟩ => ⟨S8x1024x1, .f32⟩
  | .hbm, ⟨26, _⟩ => ⟨S8x1024x1024, .f32⟩
  | .hbm, ⟨27, _⟩ => ⟨S8x1024x1024, .f32⟩
  | .hbm, ⟨28, _⟩ => ⟨S8x1024x128, .f32⟩
  | .hbm, ⟨29, _⟩ => ⟨S1024x8x128, .f32⟩
  | .hbm, ⟨30, _⟩ => ⟨S1024x8x8, .f32⟩
  | .hbm, ⟨31, _⟩ => ⟨S_, .f32⟩
  | .hbm, ⟨32, _⟩ => ⟨S1024x8x8, .f32⟩
  | .hbm, ⟨33, _⟩ => ⟨S1024x8x8, .f32⟩
  | .hbm, ⟨34, _⟩ => ⟨S1024x8x8, .f32⟩
  | .hbm, ⟨35, _⟩ => ⟨S1024x8x8, .f32⟩
  | .hbm, ⟨36, _⟩ => ⟨S_, .f32⟩
  | .hbm, ⟨37, _⟩ => ⟨S1024x8x8, .f32⟩
  | .hbm, ⟨38, _⟩ => ⟨S1024x8x8, .f32⟩
  | .hbm, ⟨39, _⟩ => ⟨S_, .f32⟩
  | .hbm, ⟨40, _⟩ => ⟨S1024x8x8, .f32⟩
  | .hbm, ⟨41, _⟩ => ⟨S1024x8x8, .f32⟩
  | .hbm, ⟨42, _⟩ => ⟨S1x1024x8x8, .f32⟩
  | .hbm, ⟨43, _⟩ => ⟨S1024x1024x8x8, .f32⟩
  | .hbm, ⟨44, _⟩ => ⟨S8x1024x8x1024, .f32⟩
  | .hbm, ⟨45, _⟩ => ⟨S8192x8192, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S_S8x1024x1024 : S_.BroadcastsInDim S8x1024x1024 (![] : Fin 0 → Fin S8x1024x1024.rank)
  bcast_S1024x1024_S1x1024x1024_1_2 : S1024x1024.BroadcastsInDim S1x1024x1024 (![1, 2] : Fin 2 → Fin S1x1024x1024.rank)
  bcast_S_S1x1024x1024 : S_.BroadcastsInDim S1x1024x1024 (![] : Fin 0 → Fin S1x1024x1024.rank)
  bcast_S1x1024x1024_S8x1024x1024_0_1_2 : S1x1024x1024.BroadcastsInDim S8x1024x1024 (![0, 1, 2] : Fin 3 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  transposes_S8x1024x128_S1024x8x128_1_0_2 : S8x1024x128.Transposes [1, 0, 2] S1024x8x128
  bcast_S_S1024x8x8 : S_.BroadcastsInDim S1024x8x8 (![] : Fin 0 → Fin S1024x8x8.rank)
  bcast_S1024x8x8_S1x1024x8x8_1_2_3 : S1024x8x8.BroadcastsInDim S1x1024x8x8 (![1, 2, 3] : Fin 3 → Fin S1x1024x8x8.rank)
  bcast_S1x1024x8x8_S1024x1024x8x8_0_1_2_3 : S1x1024x8x8.BroadcastsInDim S1024x1024x8x8 (![0, 1, 2, 3] : Fin 4 → Fin S1024x1024x8x8.rank)
  transposes_S1024x1024x8x8_S8x1024x8x1024_3_1_2_0 : S1024x1024x8x8.Transposes [3, 1, 2, 0] S8x1024x8x1024
  shapeCasts_S8x1024x8x1024_S8192x8192 : S8x1024x8x1024.ShapeCasts S8192x8192
  dot_S8x1024x128_S8x1024x128_S8x1024x1024_2_2_1_1_0_0_wf : DotDims.WF S8x1024x128 S8x1024x128 S8x1024x1024 [2] [2] [1] [1] [0] [0]
  dot_S8x1024x1024_S8x1024x128_S8x1024x128_2_1_1_2_0_0_wf : DotDims.WF S8x1024x1024 S8x1024x128 S8x1024x128 [2] [1] [1] [2] [0] [0]
  dot_S1024x8x128_S1024x8x128_S1024x8x8_2_2_1_1_0_0_wf : DotDims.WF S1024x8x128 S1024x8x128 S1024x8x8 [2] [2] [1] [1] [0] [0]

variable [Facts₀]

def dot_S8x1024x128_S8x1024x128_S8x1024x1024_2_2_1_1_0_0 : DotDims S8x1024x128 S8x1024x128 S8x1024x1024 where
  lhsContracting := [2]
  rhsContracting := [2]
  lhsNonContracting := [1]
  rhsNonContracting := [1]
  lhsBatch := [0]
  rhsBatch := [0]
  wf := dot_S8x1024x128_S8x1024x128_S8x1024x1024_2_2_1_1_0_0_wf
def dot_S8x1024x1024_S8x1024x128_S8x1024x128_2_1_1_2_0_0 : DotDims S8x1024x1024 S8x1024x128 S8x1024x128 where
  lhsContracting := [2]
  rhsContracting := [1]
  lhsNonContracting := [1]
  rhsNonContracting := [2]
  lhsBatch := [0]
  rhsBatch := [0]
  wf := dot_S8x1024x1024_S8x1024x128_S8x1024x128_2_1_1_2_0_0_wf
def dot_S1024x8x128_S1024x8x128_S1024x8x8_2_2_1_1_0_0 : DotDims S1024x8x128 S1024x8x128 S1024x8x8 where
  lhsContracting := [2]
  rhsContracting := [2]
  lhsNonContracting := [1]
  rhsNonContracting := [1]
  lhsBatch := [0]
  rhsBatch := [0]
  wf := dot_S1024x8x128_S1024x8x128_S1024x8x8_2_2_1_1_0_0_wf

class Facts : Prop extends Facts₀ where

variable [Facts]
-- ==== Proof.K.Region0.lean ====
/-
  The attention call (the first pallas_call) of the kernel as printed, at any float instance, entered with the core's
  buffers at contents `V`.

  Grid point `t = (τ, ι)` of the 8 × 4 grid handles time step `τ` and the query rows `256·ι … 256·ι + 255`.  The body
  reads three blocks — the 256 query rows of time step `τ`, all 1024 key rows of time step `τ` (the keys are also the
  values), and, out of the resident adjacency matrix, the 256 × 1024 band of rows `256·ι …` — and stores ONE value into
  the whole 1 × 256 × 128 output block: the masked row-softmax of the scaled scores times the values.  So what the body
  leaves in the output block is a function of those three blocks and of `ι` alone; it is named here (`attnBlock`), the
  body is run once against that name, and the per-point bookkeeping the pipeline asks for is stated over it.

  The query block and the key block are two windows onto ONE array (the features rounded to bf16): the core's full
  ownership of that array is dealt half to each window (`q` below), which is all the pipeline needs to read it.
-/
import proofs.«420913_j49830210568659_3_alg».proof.Proof.Gen.Kernel.Launch
import proofs.«420913_j49830210568659_3_alg».proof.Proof.Gen.Kernel.Skeleton
import proofs.«420913_j49830210568659_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The blocks the call reads -/

/-- Window `w`'s block at grid point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1 × 256 × 128 block (the query block read, the output block written). -/
abbrev rowsRect : Rect S1x256x128 := Rect.unit (s := S1x256x128) ![0, 0, 0] S1x256x128.size inb_S1x256x128_S1x256x128_0_0_0
/-- The whole 1 × 1024 × 128 key block. -/
abbrev keysRect : Rect S1x1024x128 := Rect.unit (s := S1x1024x128) ![0, 0, 0] S1x1024x128.size inb_S1x1024x128_S1x1024x128_0_0_0
/-- The band of 256 adjacency rows that belongs to the point's query rows. -/
abbrev bandRect (i : grid0.Coords) : Rect S1024x1024 := Rect.unit (s := S1024x1024) (k0_off1 i) S256x1024.size (k0_off1_inb i)

/-- What the body leaves in the output block: its one store, of the attention of the three blocks it read. -/
def attnBlock (i : grid0.Coords) (xq : Vec F S1x256x128 .bf16) (xk : Vec F S1x1024x128 .bf16) (xa : Vec F S1024x1024 .i32) : Vec F S1x256x128 .f32 :=
  View.canon [⟨rowsRect, k0_pay1 (View.ld xq rowsRect) (View.ld xk keysRect) (View.ld xa (bandRect i))⟩]

/-- The one store fills the output block. -/
theorem attnBlock_cover (p0 : Vec F S1x256x128 .f32) (y : S1x256x128.Idx) :
    ∃ pc ∈ ([⟨rowsRect, p0⟩] : List (View.Piece (Elt F) S1x256x128 .f32)), y ∈ pc.1.set :=
  View.cover_of_tiled [⟨rowsRect, p0⟩] S1x256x128.size (by rfl) y

/-! ## The body, run once -/

set_option maxHeartbeats 1000000 in
/-- On whole staging buffers holding the three input blocks (and anything in the output's), the body runs to its end,
    leaves the inputs as they were and the output buffer at `attnBlock` of them. -/
theorem gat_body (c : Dev nD) (E : Set ℕ) (i : grid0.Coords)
    (arg2 : Memref sig .tc .vmem S1x256x128 .bf16) (harg2 : arg2.IsWhole) (arg3 : Memref sig .tc .vmem S1x1024x128 .bf16) (harg3 : arg3.IsWhole)
    (arg4 : Memref sig .tc .vmem S1024x1024 .i32) (harg4 : arg4.IsWhole) (arg5 : Memref sig .tc .vmem S1x256x128 .f32) (harg5 : arg5.IsWhole)
    (xq : Vec F S1x256x128 .bf16) (xk : Vec F S1x1024x128 .bf16) (xa : Vec F S1024x1024 .i32) (K : PUnit → sProp 𝕄) :
    iprop(owns (c : Thread nD τ) arg2 fullShare xq ∗ owns (c : Thread nD τ) arg3 fullShare xk ∗ owns (c : Thread nD τ) arg4 fullShare xa
        ∗ (∃ d, owns (c : Thread nD τ) arg5 fullShare d)
        ∗ (iprop(owns (c : Thread nD τ) arg2 fullShare xq ∗ owns (c : Thread nD τ) arg3 fullShare xk ∗ owns (c : Thread nD τ) arg4 fullShare xa
            ∗ owns (c : Thread nD τ) arg5 fullShare (attnBlock i xq xk xa)) -∗ K ⟨⟩))
      ⊢ wp frame (wpE (defs₀ (F := F)) Variants.none c none) E (cc0__gat_kernel i arg2 harg2 arg3 harg3 arg4 harg4 arg5 harg5) K := by
  simp only [cc0__gat_kernel_eq_skeleton]; unfold cc0__gat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnBlock_cover _)

/-! ## The proof data the pipeline asks for -/

/-- On core `c`: the arrays as the call finds them; after the body at point `t` each input's staging buffer still holds
    its block and the output's holds `attnBlock` of the three; the body keeps nothing between points and owes nothing.
    The query window and the key window read one array, so each is given half of the core's ownership of it; the
    adjacency window has its array to itself. -/
def attnDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => attnBlock (grid0.coords t) (blk0 V c 0 t) (blk0 V c 1 t) (blk0 V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem attnDat_A (c : Dev nD) (w : Fin cfg0.W) : (attnDat V c).A w = V c (Pipeline.arrRef spec0 w) := by
  dsimp only [attnDat]

theorem attnDat_after0 (c : Dev nD) (t : Fin cfg0.N) : (attnDat V c).after 0 t = blk0 V c 0 t := by dsimp only [attnDat]
theorem attnDat_after1 (c : Dev nD) (t : Fin cfg0.N) : (attnDat V c).after 1 t = blk0 V c 1 t := by dsimp only [attnDat]
theorem attnDat_after2 (c : Dev nD) (t : Fin cfg0.N) : (attnDat V c).after 2 t = blk0 V c 2 t := by dsimp only [attnDat]
theorem attnDat_after3 (c : Dev nD) (t : Fin cfg0.N) :
    (attnDat V c).after 3 t = attnBlock (grid0.coords t) (blk0 V c 0 t) (blk0 V c 1 t) (blk0 V c 2 t) := by dsimp only [attnDat]

/-- An input window's staging buffer holds that window's block at every point, whether the pipeline fetched it there
    or the block index has not moved since it did (the key block changes every fourth point, the adjacency never). -/
theorem attnDat_before0 (c : Dev nD) (t : Fin cfg0.N) (d) : (attnDat V c).before 0 t d = blk0 V c 0 t :=
  ((attnDat V c).before_in_eq_fetched 0 rfl (fun _ => rfl) (fun _ _ _ => rfl)
      (fun t => by rw [attnDat_after0]; unfold Dat.blockOf blk0; rw [attnDat_A]; try rfl) t d).trans
    (by unfold Dat.fetched Dat.blockOf blk0; rw [attnDat_A]; try rfl)
theorem attnDat_before1 (c : Dev nD) (t : Fin cfg0.N) (d) : (attnDat V c).before 1 t d = blk0 V c 1 t :=
  ((attnDat V c).before_in_eq_fetched 1 rfl (fun _ => rfl) (fun _ _ _ => rfl)
      (fun t => by rw [attnDat_after1]; unfold Dat.blockOf blk0; rw [attnDat_A]; try rfl) t d).trans
    (by unfold Dat.fetched Dat.blockOf blk0; rw [attnDat_A]; try rfl)
theorem attnDat_before2 (c : Dev nD) (t : Fin cfg0.N) (d) : (attnDat V c).before 2 t d = blk0 V c 2 t :=
  ((attnDat V c).before_in_eq_fetched 2 rfl (fun _ => rfl) (fun _ _ _ => rfl)
      (fun t => by rw [attnDat_after2]; unfold Dat.blockOf blk0; rw [attnDat_A]; try rfl) t d).trans
    (by unfold Dat.fetched Dat.blockOf blk0; rw [attnDat_A]; try rfl)

/-! ## The body at a generic grid point -/

/-- What the pipeline hands the body at point `t`, window by window, -/
def attnPre (c : Dev nD) (t : Fin cfg0.N) : sProp 𝕄 :=
  iprop((attnDat V c).Φ t.castSucc ∗ (attnDat V c).owesAt () t.castSucc
    ∗ (∃ d, owns (c : Thread nD τ) (st0_0 t) fullShare ((attnDat V c).before 0 t d))
    ∗ (∃ d, owns (c : Thread nD τ) (st0_1 t) fullShare ((attnDat V c).before 1 t d))
    ∗ (∃ d, owns (c : Thread nD τ) (st0_2 t) fullShare ((attnDat V c).before 2 t d))
    ∗ (∃ d, owns (c : Thread nD τ) (st0_3 t) fullShare ((attnDat V c).before 3 t d)))

/-- and what it wants back. -/
def attnPost (c : Dev nD) (t : Fin cfg0.N) : sProp 𝕄 :=
  iprop((attnDat V c).Φ t.succ ∗ (attnDat V c).owesAt () t.succ
    ∗ owns (c : Thread nD τ) (st0_0 t) fullShare ((attnDat V c).after 0 t)
    ∗ owns (c : Thread nD τ) (st0_1 t) fullShare ((attnDat V c).after 1 t)
    ∗ owns (c : Thread nD τ) (st0_2 t) fullShare ((attnDat V c).after 2 t)
    ∗ owns (c : Thread nD τ) (st0_3 t) fullShare ((attnDat V c).after 3 t))

/-- At any point the inputs' buffers hold their blocks, so the run of the body above applies; the invariant and what
    the core owes pass through untouched. -/
theorem attn_point (c : Dev nD) (t : Fin cfg0.N) :
    attnPre V c t ⊢ wp frame (wpE (defs₀ (F := F)) Variants.none c none) Set.univ (bodyAt0 t) (fun _ => attnPost V c t) := by
  unfold attnPre attnPost bodyAt0
  simp only [attnDat_before0, attnDat_before1, attnDat_before2]
  rw [show (attnDat V c).Φ t.succ = (attnDat V c).Φ t.castSucc from rfl,
    show (attnDat V c).owesAt () t.succ = (attnDat V c).owesAt () t.castSucc from rfl,
    attnDat_after0, attnDat_after1, attnDat_after2, attnDat_after3]
  iintro ⟨HΦ, Ho, ⟨%d0, H0⟩, ⟨%d1, H1⟩, ⟨%d2, H2⟩, ⟨%d3, H3⟩⟩
  iapply (gat_body c Set.univ (grid0.coords t) _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem attn_obligation (c : Dev nD) : BodyObligation (attnDat (F := F) V c) (defs₀ (F := F)) Variants.none () Set.univ := fun t => by
  rw [bigSep_W0, bigSep_W0]
  exact attn_point V c t

end Cert.Kernel.Hand

end
-- ==== Proof.K.Region1.lean ====
/-
  The spreading call (the second pallas_call) of the kernel as printed, at any float instance, entered with the core's
  buffers at contents `V`.

  Grid point `(σ, θ)` of the 4 × 8 grid reads one 2 × 1 × 1024 × 1 block of the pre-sigmoid temporal scores — the two
  vectors of length 1024 at source steps `2σ`, `2σ + 1` and target step `θ` — and writes one 2048 × 1024 block of the
  result by two stores: the logistic of the first vector spread across the 1024 columns of the top 1024 rows, the
  logistic of the second across the bottom 1024 rows.  The two stores tile the block, so what the body leaves there is a
  function of the input block alone (`spreadBlock`).
-/
import proofs.«420913_j49830210568659_3_alg».proof.Proof.Gen.Kernel.Launch
import proofs.«420913_j49830210568659_3_alg».proof.Proof.Gen.Kernel.Skeleton
import proofs.«420913_j49830210568659_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The blocks the call reads -/

/-- Window `w`'s block at grid point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first and the second vector of the input block. -/
abbrev vec0Rect : Rect S2x1x1024x1 := Rect.unit (s := S2x1x1024x1) ![0, 0, 0, 0] S1x1x1024x1.size inb_S2x1x1024x1_S1x1x1024x1_0_0_0_0
abbrev vec1Rect : Rect S2x1x1024x1 := Rect.unit (s := S2x1x1024x1) ![1, 0, 0, 0] S1x1x1024x1.size inb_S2x1x1024x1_S1x1x1024x1_1_0_0_0
/-- The top and the bottom 1024 rows of the output block. -/
abbrev topRect : Rect S2048x1024 := Rect.unit (s := S2048x1024) ![0, 0] S1024x1024.size inb_S2048x1024_S1024x1024_0_0
abbrev botRect : Rect S2048x1024 := Rect.unit (s := S2048x1024) ![1024, 0] S1024x1024.size inb_S2048x1024_S1024x1024_1024_0

/-- What the body leaves in the output block: the later store (the bottom rows) listed first, then the top rows. -/
def spreadBlock (x : Vec F S2x1x1024x1 .f32) : Vec F S2048x1024 .f32 :=
  View.canon [⟨botRect, k1_pay2 (View.ld x vec1Rect)⟩, ⟨topRect, k1_pay1 (View.ld x vec0Rect)⟩]

/-- The two stores tile the output block. -/
theorem spreadBlock_cover (p0 p1 : Vec F S1024x1024 .f32) (y : S2048x1024.Idx) :
    ∃ pc ∈ ([⟨botRect, p1⟩, ⟨topRect, p0⟩] : List (View.Piece (Elt F) S2048x1024 .f32)), y ∈ pc.1.set :=
  View.cover_of_tiled [⟨botRect, p1⟩, ⟨topRect, p0⟩] S1024x1024.size (by rfl) y

/-! ## The body, run once -/

set_option maxHeartbeats 1000000 in
/-- On whole staging buffers, the input's holding its block (the output's anything), the body runs to its end, leaves
    the input as it was and the output buffer at `spreadBlock` of it. -/
theorem spread_body (c : Dev nD) (E : Set ℕ) (i : grid1.Coords)
    (arg2 : Memref sig .tc .vmem S2x1x1024x1 .f32) (harg2 : arg2.IsWhole) (arg3 : Memref sig .tc .vmem S2048x1024 .f32) (harg3 : arg3.IsWhole)
    (x : Vec F S2x1x1024x1 .f32) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (spreadBlock x)) -∗ K ⟨⟩))
      ⊢ wp frame (wpE (defs₀ (F := F)) Variants.none c none) E (cc1__broadcast_kernel i arg2 harg2 arg3 harg3) K := by
  simp only [cc1__broadcast_kernel_eq_skeleton]; unfold cc1__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (spreadBlock_cover _ _)

/-! ## The proof data the pipeline asks for -/

/-- On core `c`: the arrays as the call finds them; after the body at point `t` the input's staging buffer still holds
    its block and the output's holds `spreadBlock` of it; nothing kept between points, nothing owed. -/
def spreadDat (c : Dev nD) : Dat τ (Elt F) Unit ℕ (UR sig nD τ) ℕ cfg1 c where
  A w := V c (Pipeline.arrRef spec1 w)
  after w t := match w with
    | ⟨0, _⟩ => blk1 V c 0 t
    | ⟨1, _⟩ => spreadBlock (blk1 V c 0 t)
  Φ _ := Pipeline.ΦA spec1 c
  q _ := fullShare
  owed _ := 0

theorem spreadDat_A (c : Dev nD) (w : Fin cfg1.W) : (spreadDat V c).A w = V c (Pipeline.arrRef spec1 w) := by
  dsimp only [spreadDat]

theorem spreadDat_after0 (c : Dev nD) (t : Fin cfg1.N) : (spreadDat V c).after 0 t = blk1 V c 0 t := by dsimp only [spreadDat]
theorem spreadDat_after1 (c : Dev nD) (t : Fin cfg1.N) : (spreadDat V c).after 1 t = spreadBlock (blk1 V c 0 t) := by dsimp only [spreadDat]

/-- The input's staging buffer holds its block at every point (it is fetched at every point). -/
theorem spreadDat_before0 (c : Dev nD) (t : Fin cfg1.N) (d) : (spreadDat V c).before 0 t d = blk1 V c 0 t :=
  ((spreadDat V c).before_in_eq_fetched 0 rfl (fun _ => rfl) (fun _ _ _ => rfl)
      (fun t => by rw [spreadDat_after0]; unfold Dat.blockOf blk1; rw [spreadDat_A]; try rfl) t d).trans
    (by unfold Dat.fetched Dat.blockOf blk1; rw [spreadDat_A]; try rfl)

/-! ## The body at a generic grid point -/

def spreadPre (c : Dev nD) (t : Fin cfg1.N) : sProp 𝕄 :=
  iprop((spreadDat V c).Φ t.castSucc ∗ (spreadDat V c).owesAt () t.castSucc
    ∗ (∃ d, owns (c : Thread nD τ) (st1_0 t) fullShare ((spreadDat V c).before 0 t d))
    ∗ (∃ d, owns (c : Thread nD τ) (st1_1 t) fullShare ((spreadDat V c).before 1 t d)))

def spreadPost (c : Dev nD) (t : Fin cfg1.N) : sProp 𝕄 :=
  iprop((spreadDat V c).Φ t.succ ∗ (spreadDat V c).owesAt () t.succ
    ∗ owns (c : Thread nD τ) (st1_0 t) fullShare ((spreadDat V c).after 0 t)
    ∗ owns (c : Thread nD τ) (st1_1 t) fullShare ((spreadDat V c).after 1 t))

theorem spread_point (c : Dev nD) (t : Fin cfg1.N) :
    spreadPre V c t ⊢ wp frame (wpE (defs₀ (F := F)) Variants.none c none) Set.univ (bodyAt1 t) (fun _ => spreadPost V c t) := by
  unfold spreadPre spreadPost bodyAt1
  simp only [spreadDat_before0]
  rw [show (spreadDat V c).Φ t.succ = (spreadDat V c).Φ t.castSucc from rfl,
    show (spreadDat V c).owesAt () t.succ = (spreadDat V c).owesAt () t.castSucc from rfl,
    spreadDat_after0, spreadDat_after1]
  iintro ⟨HΦ, Ho, ⟨%d0, H0⟩, ⟨%d1, H1⟩⟩
  iapply (spread_body c Set.univ (grid1.coords t) _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's obligation on the body, at every point. -/
theorem spread_obligation (c : Dev nD) : BodyObligation (spreadDat (F := F) V c) (defs₀ (F := F)) Variants.none () Set.univ := fun t => by
  rw [bigSep_W1, bigSep_W1]
  exact spread_point V c t

end Cert.Kernel.Hand

end
-- ==== Proof.K.Run.lean ====
/-
  The whole run of the kernel's, as printed, @main, at any float instance: the rounding of the features to bf16, the
  attention call, the seven host operations that turn its result into the pre-sigmoid temporal scores, the spreading
  call.

  The core's unscoped buffers are followed as ONE valuation from the launch to the return: at launch the memory; after
  a stretch of host operations, those operations applied; after a call, the same valuation with the call's result array
  replaced by what the pipeline's write-backs leave there.  Each call is entered by handing the pipeline the buffers
  behind its windows and is left by taking them back.  In the attention call the query window and the key window are
  two windows onto the SAME buffer (the bf16 features), so on entry the core's full ownership of that buffer is dealt
  half to each, and on exit the two halves — both still holding the contents they were handed — are joined again.

  The run's conclusion reads every unscoped buffer at the last valuation; that the two argument arrays end as launched,
  and what the result array holds, are read off it.
-/
import proofs.«420913_j49830210568659_3_alg».proof.Proof.K.Region0
import proofs.«420913_j49830210568659_3_alg».proof.Proof.K.Region1
import proofs.«420913_j49830210568659_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents between the items of @main -/

/-- At launch. -/
abbrev memLaunch (c : Dev nD) : Valuation τ sig (Elt F) := fun b => m (c, b)
/-- After the rounding of the features: what the attention call is entered with. -/
abbrev memAttnIn (c : Dev nD) : Valuation τ sig (Elt F) := StableHlo.after hostOps0 (memLaunch m c)
/-- The same, read at the TensorCore's references. -/
abbrev attnIn : (c : Dev nD) → (b : Ref sig .tc) → Buf (Elt F) ((c : Thread nD τ).loc b) := fun c b => memAttnIn m c b
/-- After the attention call: its result array at what the write-backs leave, everything else as entered. -/
def memAttnOut (c : Dev nD) : Valuation τ sig (Elt F) :=
  Function.update (memAttnIn m c) main_v1 ((attnDat (attnIn m) c).arrAt 3 cfg0.N)
abbrev attnOut : (c : Dev nD) → (b : Ref sig .tc) → Buf (Elt F) ((c : Thread nD τ).loc b) := fun c b => memAttnOut m c b
/-- After the seven host operations: what the spreading call is entered with. -/
abbrev memSpreadIn (c : Dev nD) : Valuation τ sig (Elt F) := StableHlo.after hostOps1 (memAttnOut m c)
abbrev spreadIn : (c : Dev nD) → (b : Ref sig .tc) → Buf (Elt F) ((c : Thread nD τ).loc b) := fun c b => memSpreadIn m c b
/-- At the return: the spreading call's result array at what its write-backs leave. -/
def memEnd (c : Dev nD) : Valuation τ sig (Elt F) :=
  Function.update (memSpreadIn m c) main_v8 ((spreadDat (spreadIn m) c).arrAt 1 cfg1.N)
abbrev atEnd : (c : Dev nD) → (b : Ref sig .tc) → Buf (Elt F) ((c : Thread nD τ).loc b) := fun c b => memEnd m c b

theorem attnOut_result (c : Dev nD) : attnOut m c main_v1 = (attnDat (attnIn m) c).arrAt 3 cfg0.N := by
  exact Function.update_self ..
theorem attnOut_other (c : Dev nD) (b : Ref sig .tc) (h : b ≠ main_v1) : attnOut m c b = attnIn m c b := by
  exact Function.update_of_ne (StableHlo.devRef_ne_of_ne h) ..
theorem atEnd_result (c : Dev nD) : atEnd m c main_v8 = (spreadDat (spreadIn m) c).arrAt 1 cfg1.N := by
  exact Function.update_self ..
theorem atEnd_other (c : Dev nD) (b : Ref sig .tc) (h : b ≠ main_v8) : atEnd m c b = spreadIn m c b := by
  exact Function.update_of_ne (StableHlo.devRef_ne_of_ne h) ..

/-- No item of @main writes an argument array: the last valuation holds each as launched. -/
theorem atEnd_arg0 (c : Dev nD) : atEnd m c main_arg0 = m ((c : Thread nD τ).loc main_arg0) :=
  (atEnd_other m c main_arg0 (by decide)).trans <|
    (StableHlo.after_of_writes_sub hostOps1 _ hostOps1_writes (r := main_arg0) (by decide)).trans <|
      (attnOut_other m c main_arg0 (by decide)).trans <|
        (StableHlo.after_of_writes_sub hostOps0 _ hostOps0_writes (r := main_arg0) (by decide)).trans rfl
theorem atEnd_arg1 (c : Dev nD) : atEnd m c main_arg1 = m ((c : Thread nD τ).loc main_arg1) :=
  (atEnd_other m c main_arg1 (by decide)).trans <|
    (StableHlo.after_of_writes_sub hostOps1 _ hostOps1_writes (r := main_arg1) (by decide)).trans <|
      (attnOut_other m c main_arg1 (by decide)).trans <|
        (StableHlo.after_of_writes_sub hostOps0 _ hostOps0_writes (r := main_arg1) (by decide)).trans rfl

/-! ## The attention call's windows and the three buffers behind them -/

section Shared

variable (V : (c : Dev nD) → (b : Ref sig .tc) → Buf (Elt F) ((c : Thread nD τ).loc b))

/-- The buffers behind the attention call's four windows are three: the bf16 features (two windows), the adjacency,
    the result. -/
theorem attn_buffers (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v0) ↦{fullShare} X main_v0) ∗ (((c : Thread nD τ).loc main_arg1) ↦{fullShare} X main_arg1)
          ∗ (((c : Thread nD τ).loc main_v1) ↦{fullShare} X main_v1)) := by
  unfold Pipeline.arrBufs
  exact BI.bigSep_eq_bigSepL_of_eq [main_v0, main_arg1, main_v1] (by decide) (by decide) _

/-- The pipeline's view of them: one points-to per window, the two on the bf16 features at a half share each. -/
theorem attn_arrays (c : Dev nD) (G : (w : Fin cfg0.W) → Buf (Elt F) ((cfg0.win w).arr.view.loc (c : Thread nD τ))) :
    ((attnDat V c).arrays G : sProp 𝕄)
      = iprop((((c : Thread nD τ).loc main_v0) ↦{fullShare.left} G 0) ∗ (((c : Thread nD τ).loc main_v0) ↦{fullShare.right} G 1)
          ∗ (((c : Thread nD τ).loc main_arg1) ↦{fullShare} G 2) ∗ (((c : Thread nD τ).loc main_v1) ↦{fullShare} G 3)) := by
  unfold Dat.arrays
  rw [bigSep_W0, (arr_whole0 0).set_eq_univ, (arr_whole0 2).set_eq_univ, (arr_whole0 3).set_eq_univ]
  rfl

/-- ENTRY: the three buffers whole at the contents `V` are the pipeline's arrays at the proof data's entry contents. -/
theorem attn_deal (c : Dev nD) :
    (Pipeline.arrBufs (Ix := Unit) (Name := ℕ) (U := UR sig nD τ) (Lvl := ℕ) spec0 c (V c) : sProp 𝕄)
      ⊢ (attnDat V c).arrays ((attnDat V c).arrAt · 0) := by
  rw [attn_buffers, attn_arrays]
  iintro ⟨Hx, Ha, Ho⟩
  ihave Hx' := (pointsTo_share (PosShare.mem_left_op_right fullShare)).1 $$ Hx
  icases Hx' with ⟨Hl, Hr⟩
  isplitl [Hl]; · iexact Hl
  isplitl [Hr]; · iexact Hr
  isplitl [Ha]; · iexact Ha
  iexact Ho

/-- EXIT: the pipeline's arrays at their final contents are the three buffers whole again — the features and the
    adjacency as entered (no input window's array is written), the result at what the write-backs left. -/
theorem attn_join (c : Dev nD) :
    ((attnDat V c).arrays ((attnDat V c).arrAt · cfg0.N) : sProp 𝕄)
      ⊢ iprop((((c : Thread nD τ).loc main_v0) ↦{fullShare} V c main_v0) ∗ (((c : Thread nD τ).loc main_arg1) ↦{fullShare} V c main_arg1)
          ∗ (((c : Thread nD τ).loc main_v1) ↦{fullShare} (attnDat V c).arrAt 3 cfg0.N)) := by
  rw [attn_arrays, (attnDat V c).arrAt_in 0 rfl, (attnDat V c).arrAt_in 1 rfl, (attnDat V c).arrAt_in 2 rfl,
    attnDat_A, attnDat_A, attnDat_A]
  iintro ⟨Hl, Hr, Ha, Ho⟩
  isplitl [Hl Hr]
  · iapply (pointsTo_share (PosShare.mem_left_op_right fullShare)).2
    isplitl [Hl]; · iexact Hl
    iexact Hr
  isplitl [Ha]; · iexact Ha
  iexact Ho

end Shared

/-! ## Entering and leaving the attention call -/

/-- The unscoped buffers held at the entry valuation are the pipeline's arrays at the proof data's entry contents and
    the buffers no window reads. -/
theorem attn_enter (c : Dev nD) :
    (StableHlo.held (c : Thread nD τ) (Pipeline.ucRefs τ sig) (memAttnIn m c) : sProp 𝕄)
      ⊢ iprop((attnDat (attnIn m) c).arrays ((attnDat (attnIn m) c).arrAt · 0)
          ∗ Pipeline.unscopedRest (Ix := Unit) (Name := ℕ) (U := UR sig nD τ) (Lvl := ℕ) spec0 c (attnIn m c)) := by
  have hs : (unscopedBufs c (attnIn m c) : sProp 𝕄)
      = iprop(Pipeline.arrBufs spec0 c (attnIn m c) ∗ Pipeline.unscopedRest spec0 c (attnIn m c)) :=
    Pipeline.unscopedBufs_split₀ cfgs 0 winFacts₀0.arr_unscoped c (attnIn m c)
  rw [← Pipeline.unscopedBufs_held (Ix := Unit) (Name := ℕ) (U := UR sig nD τ) (Lvl := ℕ) c (memAttnIn m c), hs]
  exact sep_mono (attn_deal (attnIn m) c) .rfl

/-- The arrays at their final contents and the untouched buffers are the unscoped buffers held at the exit valuation. -/
theorem attn_leave (c : Dev nD) :
    iprop((attnDat (attnIn m) c).arrays ((attnDat (attnIn m) c).arrAt · cfg0.N)
        ∗ Pipeline.unscopedRest (Ix := Unit) (Name := ℕ) (U := UR sig nD τ) (Lvl := ℕ) spec0 c (attnIn m c))
      ⊢ (StableHlo.held (c : Thread nD τ) (Pipeline.ucRefs τ sig) (memAttnOut m c) : sProp 𝕄) := by
  have hs : (unscopedBufs c (attnOut m c) : sProp 𝕄)
      = iprop(Pipeline.arrBufs spec0 c (attnOut m c) ∗ Pipeline.unscopedRest spec0 c (attnOut m c)) :=
    Pipeline.unscopedBufs_split₀ cfgs 0 winFacts₀0.arr_unscoped c (attnOut m c)
  rw [← Pipeline.unscopedBufs_held (Ix := Unit) (Name := ℕ) (U := UR sig nD τ) (Lvl := ℕ) c (memAttnOut m c), hs, attn_buffers,
    attnOut_other m c main_v0 (by decide), attnOut_other m c main_arg1 (by decide), attnOut_result m c]
  refine sep_mono (attn_join (attnIn m) c) (Entails.of_eq ?_)
  unfold Pipeline.unscopedRest
  exact bigSep_congr fun b hb => by
    rw [attnOut_other m c b fun e => (Finset.mem_sdiff.mp hb).2 (e ▸ Finset.mem_image.mpr ⟨3, Finset.mem_univ _, rfl⟩)]

/-! ## Leaving the spreading call -/

/-- Each of its arrays ends at what the last valuation holds there: the input as entered, the result as written back. -/
theorem spread_final (c : Dev nD) (w : Fin cfg1.W) :
    (spreadDat (spreadIn m) c).arrAt w cfg1.N = atEnd m c (Pipeline.arrRef spec1 w) := by
  match w with
  | ⟨0, _⟩ =>
    exact ((spreadDat (spreadIn m) c).arrAt_in 0 rfl _).trans
      ((spreadDat_A (spreadIn m) c 0).trans (atEnd_other m c main_v7 (by decide)).symm)
  | ⟨1, _⟩ => exact (atEnd_result m c).symm
/-- Every other buffer is as the call found it. -/
theorem spread_rest (c : Dev nD) : ∀ b, b ∉ Finset.univ.image (Pipeline.arrRef spec1) → atEnd m c b = spreadIn m c b :=
  fun b hb => atEnd_other m c b fun e => hb (e ▸ Finset.mem_image.mpr ⟨1, Finset.mem_univ _, rfl⟩)

/-! ## The proof data of both calls, and what rides along -/

/-- No call has a prefetched table. -/
abbrev tables : (p : Fin 2) → (pcfgs (F := F) p).Adm := fun p => (cfgs p).toPCfg_adm
/-- Each call's proof data at the contents it is entered with. -/
def calls : (p : Fin 2) → (c : Dev nD) → Dat τ (Elt F) Unit ℕ (UR sig nD τ) ℕ (Pipeline.pin (pcfgs (F := F)) tables p) c
  | ⟨0, _⟩ => fun c => attnDat (attnIn m) c
  | ⟨1, _⟩ => fun c => spreadDat (spreadIn m) c
abbrev noVariants : Variants := Variants.none
/-- No core owes another anything: no level is assigned. -/
abbrev noLevels : GSem nD τ sig → Finset Unit := fun _ => ∅
abbrev level0 : GSem nD τ sig → Unit → ℕ := fun _ _ => 0
/-- Beside the buffers a core carries its generator register at some state and owes nothing. -/
abbrev riding (c : Dev nD) : sProp 𝕄 := iprop((∃ r, prngReg c r) ∗ ∃ W, owes (c : Thread nD τ) (0 : CellTallies nD τ sig Unit) W)
/-- A stretch of host operations from the valuation `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels level0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owing apart. -/
abbrev lastState (c : Dev nD) : sProp 𝕄 := iprop(StableHlo.held (c : Thread nD τ) (Pipeline.ucRefs τ sig) (memEnd m c) ∗ ∃ r, prngReg c r)

/-! ## The two calls as segments of @main -/

set_option backward.isDefEq.respectTransparency.types false in
/-- The attention call: entered from every unscoped buffer at the entry valuation, left at the exit valuation; the
    generator register goes into the body's invariant and comes back; nothing owed; no semaphore of the kernel's own. -/
def attnSeg : Pipeline.RegionSeg (pcfgs (F := F)) tables (calls m) () defs₀ noVariants noLevels level0 0 where
  win := winFacts₀0
  block_pos := block_pos0
  stage_whole := stage_whole0
  K := PEmpty
  osem k := k.elim
  ho := Pipeline.OwnSemFacts.none _
  hbody c := (attn_obligation (attnIn m) c).loose
  hwaits := Pipeline.hwaits_of_owed_zero _ _ _ _ noLevels level0 0 fun _ _ => rfl
  pre c := iprop(StableHlo.held (c : Thread nD τ) (Pipeline.ucRefs τ sig) (memAttnIn m c) ∗ riding c)
  post c := iprop(StableHlo.held (c : Thread nD τ) (Pipeline.ucRefs τ sig) (memAttnOut m c) ∗ riding c)
  X c := iprop(∃ r, prngReg c r)
  Y c := iprop(∃ r, prngReg c r)
  Z c := Pipeline.unscopedRest (Ix := Unit) (Name := ℕ) (U := UR sig nD τ) (Lvl := ℕ) spec0 c (attnIn m c)
  hentry c := by
    rw [Pipeline.ownSems0_none]
    have henter : (StableHlo.held (c : Thread nD τ) (Pipeline.ucRefs τ sig) (memAttnIn m c) : sProp 𝕄)
        ⊢ iprop((calls m 0 c).arrays ((calls m 0 c).arrAt · 0)
            ∗ Pipeline.unscopedRest (Ix := Unit) (Name := ℕ) (U := UR sig nD τ) (Lvl := ℕ) spec0 c (attnIn m c)) := attn_enter m c
    iintro ⟨⟨Hub, Hp, HO⟩, -, -⟩
    ihave H := henter $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (calls m 0 c).Φ 0 = Pipeline.ΦA spec0 c from rfl]; unfold Pipeline.ΦA
    iintro ⟨Hp, -, Hr⟩
    isplitl [Hr]; · iexact Hr
    iexact Hp
  hout c := by
    rw [Pipeline.ownSems0_none, show (calls m 0 c).Φ (Fin.last _) = Pipeline.ΦA spec0 c from rfl]; unfold Pipeline.ΦA
    iintro ⟨Hr, Hp⟩
    isplitl [Hp]; · iexact Hp
    isplitr; · iempintro
    iexact Hr
  hexit c := by
    have hleave : iprop((calls m 0 c).arrays ((calls m 0 c).arrAt · cfg0.N)
          ∗ Pipeline.unscopedRest (Ix := Unit) (Name := ℕ) (U := UR sig nD τ) (Lvl := ℕ) spec0 c (attnIn m c))
        ⊢ (StableHlo.held (c : Thread nD τ) (Pipeline.ucRefs τ sig) (memAttnOut m c) : sProp 𝕄) := attn_leave m c
    iintro ⟨Ha, HO, HY, Hrest⟩
    imodintro
    isplitl [Ha Hrest]
    · iapply hleave; isplitl [Ha] <;> iassumption
    isplitl [HY]; · iexact HY
    unfold Pipeline.Dat.owesAt Pipeline.owesWithin
    icases HO with ⟨%W, -, HO⟩; iexists W; iexact HO

set_option backward.isDefEq.respectTransparency.types false in
/-- The spreading call: entered from every unscoped buffer at its entry valuation, left at the last valuation. Its two
    windows read distinct buffers, each held whole. -/
def spreadSeg : Pipeline.RegionSeg (pcfgs (F := F)) tables (calls m) () defs₀ noVariants noLevels level0 1 where
  win := launch1.win.to₀
  block_pos := launch1.block_pos
  stage_whole := launch1.stage_whole
  K := PEmpty
  osem k := k.elim
  ho := Pipeline.OwnSemFacts.none _
  hbody c := (spread_obligation (spreadIn m) c).loose
  hwaits := Pipeline.hwaits_of_owed_zero _ _ _ _ noLevels level0 1 fun _ _ => rfl
  pre c := iprop(StableHlo.held (c : Thread nD τ) (Pipeline.ucRefs τ sig) (memSpreadIn m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (spreadIn m c)
  hentry c := by
    rw [Pipeline.ownSems0_none]
    have hsplit := Pipeline.arrays_of_unscopedBufs (p := 1) (pcfgs (F := F)) tables (calls m) launch1.win launch1.arr_whole c
      ((calls m 1 c).share_full fun _ => rfl) (spreadIn m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (calls m 1 c).Φ 0 = Pipeline.ΦA spec1 c from rfl]; unfold Pipeline.ΦA
    iintro ⟨Hp, -, Hr⟩
    isplitl [Hr]; · iexact Hr
    iexact Hp
  hout c := by
    rw [Pipeline.ownSems0_none, show (calls m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (calls m) ((calls m 1 c).share_full fun _ => rfl)
      (spreadIn m c) (atEnd m c) ((calls m 1 c).arrAt · cfg1.N) (spread_final m c) (spread_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

abbrev items : List (Pipeline.Seg (pcfgs (F := F)) tables (calls m) () defs₀ noVariants noLevels level0) :=
  [ .host (hostSeg hostOps0 hostOps0_sub hostOps0_fresh (memLaunch m)),
    .region (attnSeg m),
    .host (hostSeg hostOps1 hostOps1_sub hostOps1_fresh (memAttnOut m)),
    .region (spreadSeg m) ]
/-- @main is the run of those items. -/
theorem main_items (c : Dev nD) : main (F := F) c = Pipeline.Seg.run (items m) := (main_chain c).trans (by chain_rfl)

set_option backward.isDefEq.respectTransparency.types false in
/-- From any memory with zero counters every weakly fair execution of @main terminates, nothing faulting, and in
    every final state each unscoped buffer holds what the last valuation says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = memEnd m c b) :=
  Pipeline.θ_run_regions_kit (pcfgs (F := F)) tables (calls m) () cellOf_inj emb₁ defs₀ noVariants noLevels level0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memLaunch m c) ∗ riding c)) (Tₙ := lastState m)
    (hch := ⟨fun _ => .rfl, fun _ => .rfl, fun _ => .rfl, fun _ => .rfl, fun _ => .rfl⟩)
    (hinit := by
      refine Pipeline.initEach noLevels level0 fun c => ?_
      rw [show unscopedBufs c (fun b => m ((c : Thread nD τ).loc b)) = StableHlo.held (c : Thread nD τ) (Pipeline.ucRefs τ sig) (memLaunch m c)
        from Pipeline.unscopedBufs_held c (memLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memEnd m c b)
    (hfin := fun c s' => by
      iintro ⟨⟨Hh, -⟩, HSI⟩
      unfold StableHlo.held
      imodintro
      iapply (pointsTo_read_all (Pipeline.ucRefs τ sig) (fun b => (((c : Thread nD τ)).1, b)) (memEnd m c) s')
      isplitl [Hh] <;> iassumption)
    (hQ := fun s h c => h c)

/-- What the certificate needs of the run: the result array at what the spreading call's write-backs leave, the two
    argument arrays as launched. -/
theorem run_result : θ_run defs (onTc (τ := τ) (main (F := F))) ⟨m, fun _ => 0, ρ⟩ (fun r => ∀ c : Dev nD,
      r.2.mem ((c.tc : Thread nD τ).loc main_v8) = (spreadDat (spreadIn m) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_unscoped main_v8 (by decide))).trans (atEnd_result m c),
     (h c _ (mem_unscoped main_arg0 (by decide))).trans (atEnd_arg0 m c),
     (h c _ (mem_unscoped main_arg1 (by decide))).trans (atEnd_arg1 m c)⟩) (run_all m ρ)

/-- The frame: the program runs to its end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.Kernel.Hand

end
-- ==== Proof.KI.Region0.lean ====
/-
  The attention call (the first pallas_call) of the idealized kernel, at any float instance, entered with the core's
  buffers at contents `V`.

  Grid point `t = (τ, ι)` of the 8 × 4 grid handles time step `τ` and the query rows `256·ι … 256·ι + 255`.  The body
  reads three blocks — the 256 query rows of time step `τ`, all 1024 key rows of time step `τ` (the keys are also the
  values), and, out of the resident adjacency matrix, the 256 × 1024 band of rows `256·ι …` — and stores ONE value into
  the whole 1 × 256 × 128 output block: the masked row-softmax of the scaled scores times the values.  So what the body
  leaves in the output block is a function of those three blocks and of `ι` alone; it is named here (`attnBlock`), the
  body is run once against that name, and the per-point bookkeeping the pipeline asks for is stated over it.

  The query block and the key block are two windows onto ONE array (the features rounded to bf16): the core's full
  ownership of that array is dealt half to each window (`q` below), which is all the pipeline needs to read it.
-/
import proofs.«420913_j49830210568659_3_alg».proof.Proof.Gen.KernelIdeal.Launch
import proofs.«420913_j49830210568659_3_alg».proof.Proof.Gen.KernelIdeal.Skeleton
import proofs.«420913_j49830210568659_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The blocks the call reads -/

/-- Window `w`'s block at grid point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1 × 256 × 128 block (the query block read, the output block written). -/
abbrev rowsRect : Rect S1x256x128 := Rect.unit (s := S1x256x128) ![0, 0, 0] S1x256x128.size inb_S1x256x128_S1x256x128_0_0_0
/-- The whole 1 × 1024 × 128 key block. -/
abbrev keysRect : Rect S1x1024x128 := Rect.unit (s := S1x1024x128) ![0, 0, 0] S1x1024x128.size inb_S1x1024x128_S1x1024x128_0_0_0
/-- The band of 256 adjacency rows that belongs to the point's query rows. -/
abbrev bandRect (i : grid0.Coords) : Rect S1024x1024 := Rect.unit (s := S1024x1024) (k0_off1 i) S256x1024.size (k0_off1_inb i)

/-- What the body leaves in the output block: its one store, of the attention of the three blocks it read. -/
def attnBlock (i : grid0.Coords) (xq : Vec F S1x256x128 .bf16) (xk : Vec F S1x1024x128 .bf16) (xa : Vec F S1024x1024 .i32) : Vec F S1x256x128 .f32 :=
  View.canon [⟨rowsRect, k0_pay1 (View.ld xq rowsRect) (View.ld xk keysRect) (View.ld xa (bandRect i))⟩]

/-- The one store fills the output block. -/
theorem attnBlock_cover (p0 : Vec F S1x256x128 .f32) (y : S1x256x128.Idx) :
    ∃ pc ∈ ([⟨rowsRect, p0⟩] : List (View.Piece (Elt F) S1x256x128 .f32)), y ∈ pc.1.set :=
  View.cover_of_tiled [⟨rowsRect, p0⟩] S1x256x128.size (by rfl) y

/-! ## The body, run once -/

set_option maxHeartbeats 1000000 in
/-- On whole staging buffers holding the three input blocks (and anything in the output's), the body runs to its end,
    leaves the inputs as they were and the output buffer at `attnBlock` of them. -/
theorem gat_body (c : Dev nD) (E : Set ℕ) (i : grid0.Coords)
    (arg2 : Memref sig .tc .vmem S1x256x128 .bf16) (harg2 : arg2.IsWhole) (arg3 : Memref sig .tc .vmem S1x1024x128 .bf16) (harg3 : arg3.IsWhole)
    (arg4 : Memref sig .tc .vmem S1024x1024 .i32) (harg4 : arg4.IsWhole) (arg5 : Memref sig .tc .vmem S1x256x128 .f32) (harg5 : arg5.IsWhole)
    (xq : Vec F S1x256x128 .bf16) (xk : Vec F S1x1024x128 .bf16) (xa : Vec F S1024x1024 .i32) (K : PUnit → sProp 𝕄) :
    iprop(owns (c : Thread nD τ) arg2 fullShare xq ∗ owns (c : Thread nD τ) arg3 fullShare xk ∗ owns (c : Thread nD τ) arg4 fullShare xa
        ∗ (∃ d, owns (c : Thread nD τ) arg5 fullShare d)
        ∗ (iprop(owns (c : Thread nD τ) arg2 fullShare xq ∗ owns (c : Thread nD τ) arg3 fullShare xk ∗ owns (c : Thread nD τ) arg4 fullShare xa
            ∗ owns (c : Thread nD τ) arg5 fullShare (attnBlock i xq xk xa)) -∗ K ⟨⟩))
      ⊢ wp frame (wpE (defs₀ (F := F)) Variants.none c none) E (cc0__gat_kernel i arg2 harg2 arg3 harg3 arg4 harg4 arg5 harg5) K := by
  simp only [cc0__gat_kernel_eq_skeleton]; unfold cc0__gat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnBlock_cover _)

/-! ## The proof data the pipeline asks for -/

/-- On core `c`: the arrays as the call finds them; after the body at point `t` each input's staging buffer still holds
    its block and the output's holds `attnBlock` of the three; the body keeps nothing between points and owes nothing.
    The query window and the key window read one array, so each is given half of the core's ownership of it; the
    adjacency window has its array to itself. -/
def attnDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => attnBlock (grid0.coords t) (blk0 V c 0 t) (blk0 V c 1 t) (blk0 V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem attnDat_A (c : Dev nD) (w : Fin cfg0.W) : (attnDat V c).A w = V c (Pipeline.arrRef spec0 w) := by
  dsimp only [attnDat]

theorem attnDat_after0 (c : Dev nD) (t : Fin cfg0.N) : (attnDat V c).after 0 t = blk0 V c 0 t := by dsimp only [attnDat]
theorem attnDat_after1 (c : Dev nD) (t : Fin cfg0.N) : (attnDat V c).after 1 t = blk0 V c 1 t := by dsimp only [attnDat]
theorem attnDat_after2 (c : Dev nD) (t : Fin cfg0.N) : (attnDat V c).after 2 t = blk0 V c 2 t := by dsimp only [attnDat]
theorem attnDat_after3 (c : Dev nD) (t : Fin cfg0.N) :
    (attnDat V c).after 3 t = attnBlock (grid0.coords t) (blk0 V c 0 t) (blk0 V c 1 t) (blk0 V c 2 t) := by dsimp only [attnDat]

/-- An input window's staging buffer holds that window's block at every point, whether the pipeline fetched it there
    or the block index has not moved since it did (the key block changes every fourth point, the adjacency never). -/
theorem attnDat_before0 (c : Dev nD) (t : Fin cfg0.N) (d) : (attnDat V c).before 0 t d = blk0 V c 0 t :=
  ((attnDat V c).before_in_eq_fetched 0 rfl (fun _ => rfl) (fun _ _ _ => rfl)
      (fun t => by rw [attnDat_after0]; unfold Dat.blockOf blk0; rw [attnDat_A]; try rfl) t d).trans
    (by unfold Dat.fetched Dat.blockOf blk0; rw [attnDat_A]; try rfl)
theorem attnDat_before1 (c : Dev nD) (t : Fin cfg0.N) (d) : (attnDat V c).before 1 t d = blk0 V c 1 t :=
  ((attnDat V c).before_in_eq_fetched 1 rfl (fun _ => rfl) (fun _ _ _ => rfl)
      (fun t => by rw [attnDat_after1]; unfold Dat.blockOf blk0; rw [attnDat_A]; try rfl) t d).trans
    (by unfold Dat.fetched Dat.blockOf blk0; rw [attnDat_A]; try rfl)
theorem attnDat_before2 (c : Dev nD) (t : Fin cfg0.N) (d) : (attnDat V c).before 2 t d = blk0 V c 2 t :=
  ((attnDat V c).before_in_eq_fetched 2 rfl (fun _ => rfl) (fun _ _ _ => rfl)
      (fun t => by rw [attnDat_after2]; unfold Dat.blockOf blk0; rw [attnDat_A]; try rfl) t d).trans
    (by unfold Dat.fetched Dat.blockOf blk0; rw [attnDat_A]; try rfl)

/-! ## The body at a generic grid point -/

/-- What the pipeline hands the body at point `t`, window by window, -/
def attnPre (c : Dev nD) (t : Fin cfg0.N) : sProp 𝕄 :=
  iprop((attnDat V c).Φ t.castSucc ∗ (attnDat V c).owesAt () t.castSucc
    ∗ (∃ d, owns (c : Thread nD τ) (st0_0 t) fullShare ((attnDat V c).before 0 t d))
    ∗ (∃ d, owns (c : Thread nD τ) (st0_1 t) fullShare ((attnDat V c).before 1 t d))
    ∗ (∃ d, owns (c : Thread nD τ) (st0_2 t) fullShare ((attnDat V c).before 2 t d))
    ∗ (∃ d, owns (c : Thread nD τ) (st0_3 t) fullShare ((attnDat V c).before 3 t d)))

/-- and what it wants back. -/
def attnPost (c : Dev nD) (t : Fin cfg0.N) : sProp 𝕄 :=
  iprop((attnDat V c).Φ t.succ ∗ (attnDat V c).owesAt () t.succ
    ∗ owns (c : Thread nD τ) (st0_0 t) fullShare ((attnDat V c).after 0 t)
    ∗ owns (c : Thread nD τ) (st0_1 t) fullShare ((attnDat V c).after 1 t)
    ∗ owns (c : Thread nD τ) (st0_2 t) fullShare ((attnDat V c).after 2 t)
    ∗ owns (c : Thread nD τ) (st0_3 t) fullShare ((attnDat V c).after 3 t))

/-- At any point the inputs' buffers hold their blocks, so the run of the body above applies; the invariant and what
    the core owes pass through untouched. -/
theorem attn_point (c : Dev nD) (t : Fin cfg0.N) :
    attnPre V c t ⊢ wp frame (wpE (defs₀ (F := F)) Variants.none c none) Set.univ (bodyAt0 t) (fun _ => attnPost V c t) := by
  unfold attnPre attnPost bodyAt0
  simp only [attnDat_before0, attnDat_before1, attnDat_before2]
  rw [show (attnDat V c).Φ t.succ = (attnDat V c).Φ t.castSucc from rfl,
    show (attnDat V c).owesAt () t.succ = (attnDat V c).owesAt () t.castSucc from rfl,
    attnDat_after0, attnDat_after1, attnDat_after2, attnDat_after3]
  iintro ⟨HΦ, Ho, ⟨%d0, H0⟩, ⟨%d1, H1⟩, ⟨%d2, H2⟩, ⟨%d3, H3⟩⟩
  iapply (gat_body c Set.univ (grid0.coords t) _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem attn_obligation (c : Dev nD) : BodyObligation (attnDat (F := F) V c) (defs₀ (F := F)) Variants.none () Set.univ := fun t => by
  rw [bigSep_W0, bigSep_W0]
  exact attn_point V c t

end Cert.KernelIdeal.Hand

end
-- ==== Proof.KI.Region1.lean ====
/-
  The spreading call (the second pallas_call) of the idealized kernel, at any float instance, entered with the core's
  buffers at contents `V`.

  Grid point `(σ, θ)` of the 4 × 8 grid reads one 2 × 1 × 1024 × 1 block of the pre-sigmoid temporal scores — the two
  vectors of length 1024 at source steps `2σ`, `2σ + 1` and target step `θ` — and writes one 2048 × 1024 block of the
  result by two stores: the logistic of the first vector spread across the 1024 columns of the top 1024 rows, the
  logistic of the second across the bottom 1024 rows.  The two stores tile the block, so what the body leaves there is a
  function of the input block alone (`spreadBlock`).
-/
import proofs.«420913_j49830210568659_3_alg».proof.Proof.Gen.KernelIdeal.Launch
import proofs.«420913_j49830210568659_3_alg».proof.Proof.Gen.KernelIdeal.Skeleton
import proofs.«420913_j49830210568659_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The blocks the call reads -/

/-- Window `w`'s block at grid point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first and the second vector of the input block. -/
abbrev vec0Rect : Rect S2x1x1024x1 := Rect.unit (s := S2x1x1024x1) ![0, 0, 0, 0] S1x1x1024x1.size inb_S2x1x1024x1_S1x1x1024x1_0_0_0_0
abbrev vec1Rect : Rect S2x1x1024x1 := Rect.unit (s := S2x1x1024x1) ![1, 0, 0, 0] S1x1x1024x1.size inb_S2x1x1024x1_S1x1x1024x1_1_0_0_0
/-- The top and the bottom 1024 rows of the output block. -/
abbrev topRect : Rect S2048x1024 := Rect.unit (s := S2048x1024) ![0, 0] S1024x1024.size inb_S2048x1024_S1024x1024_0_0
abbrev botRect : Rect S2048x1024 := Rect.unit (s := S2048x1024) ![1024, 0] S1024x1024.size inb_S2048x1024_S1024x1024_1024_0

/-- What the body leaves in the output block: the later store (the bottom rows) listed first, then the top rows. -/
def spreadBlock (x : Vec F S2x1x1024x1 .f32) : Vec F S2048x1024 .f32 :=
  View.canon [⟨botRect, k1_pay2 (View.ld x vec1Rect)⟩, ⟨topRect, k1_pay1 (View.ld x vec0Rect)⟩]

/-- The two stores tile the output block. -/
theorem spreadBlock_cover (p0 p1 : Vec F S1024x1024 .f32) (y : S2048x1024.Idx) :
    ∃ pc ∈ ([⟨botRect, p1⟩, ⟨topRect, p0⟩] : List (View.Piece (Elt F) S2048x1024 .f32)), y ∈ pc.1.set :=
  View.cover_of_tiled [⟨botRect, p1⟩, ⟨topRect, p0⟩] S1024x1024.size (by rfl) y

/-! ## The body, run once -/

set_option maxHeartbeats 1000000 in
/-- On whole staging buffers, the input's holding its block (the output's anything), the body runs to its end, leaves
    the input as it was and the output buffer at `spreadBlock` of it. -/
theorem spread_body (c : Dev nD) (E : Set ℕ) (i : grid1.Coords)
    (arg2 : Memref sig .tc .vmem S2x1x1024x1 .f32) (harg2 : arg2.IsWhole) (arg3 : Memref sig .tc .vmem S2048x1024 .f32) (harg3 : arg3.IsWhole)
    (x : Vec F S2x1x1024x1 .f32) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (spreadBlock x)) -∗ K ⟨⟩))
      ⊢ wp frame (wpE (defs₀ (F := F)) Variants.none c none) E (cc1__broadcast_kernel i arg2 harg2 arg3 harg3) K := by
  simp only [cc1__broadcast_kernel_eq_skeleton]; unfold cc1__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (spreadBlock_cover _ _)

/-! ## The proof data the pipeline asks for -/

/-- On core `c`: the arrays as the call finds them; after the body at point `t` the input's staging buffer still holds
    its block and the output's holds `spreadBlock` of it; nothing kept between points, nothing owed. -/
def spreadDat (c : Dev nD) : Dat τ (Elt F) Unit ℕ (UR sig nD τ) ℕ cfg1 c where
  A w := V c (Pipeline.arrRef spec1 w)
  after w t := match w with
    | ⟨0, _⟩ => blk1 V c 0 t
    | ⟨1, _⟩ => spreadBlock (blk1 V c 0 t)
  Φ _ := Pipeline.ΦA spec1 c
  q _ := fullShare
  owed _ := 0

theorem spreadDat_A (c : Dev nD) (w : Fin cfg1.W) : (spreadDat V c).A w = V c (Pipeline.arrRef spec1 w) := by
  dsimp only [spreadDat]

theorem spreadDat_after0 (c : Dev nD) (t : Fin cfg1.N) : (spreadDat V c).after 0 t = blk1 V c 0 t := by dsimp only [spreadDat]
theorem spreadDat_after1 (c : Dev nD) (t : Fin cfg1.N) : (spreadDat V c).after 1 t = spreadBlock (blk1 V c 0 t) := by dsimp only [spreadDat]

/-- The input's staging buffer holds its block at every point (it is fetched at every point). -/
theorem spreadDat_before0 (c : Dev nD) (t : Fin cfg1.N) (d) : (spreadDat V c).before 0 t d = blk1 V c 0 t :=
  ((spreadDat V c).before_in_eq_fetched 0 rfl (fun _ => rfl) (fun _ _ _ => rfl)
      (fun t => by rw [spreadDat_after0]; unfold Dat.blockOf blk1; rw [spreadDat_A]; try rfl) t d).trans
    (by unfold Dat.fetched Dat.blockOf blk1; rw [spreadDat_A]; try rfl)

/-! ## The body at a generic grid point -/

def spreadPre (c : Dev nD) (t : Fin cfg1.N) : sProp 𝕄 :=
  iprop((spreadDat V c).Φ t.castSucc ∗ (spreadDat V c).owesAt () t.castSucc
    ∗ (∃ d, owns (c : Thread nD τ) (st1_0 t) fullShare ((spreadDat V c).before 0 t d))
    ∗ (∃ d, owns (c : Thread nD τ) (st1_1 t) fullShare ((spreadDat V c).before 1 t d)))

def spreadPost (c : Dev nD) (t : Fin cfg1.N) : sProp 𝕄 :=
  iprop((spreadDat V c).Φ t.succ ∗ (spreadDat V c).owesAt () t.succ
    ∗ owns (c : Thread nD τ) (st1_0 t) fullShare ((spreadDat V c).after 0 t)
    ∗ owns (c : Thread nD τ) (st1_1 t) fullShare ((spreadDat V c).after 1 t))

theorem spread_point (c : Dev nD) (t : Fin cfg1.N) :
    spreadPre V c t ⊢ wp frame (wpE (defs₀ (F := F)) Variants.none c none) Set.univ (bodyAt1 t) (fun _ => spreadPost V c t) := by
  unfold spreadPre spreadPost bodyAt1
  simp only [spreadDat_before0]
  rw [show (spreadDat V c).Φ t.succ = (spreadDat V c).Φ t.castSucc from rfl,
    show (spreadDat V c).owesAt () t.succ = (spreadDat V c).owesAt () t.castSucc from rfl,
    spreadDat_after0, spreadDat_after1]
  iintro ⟨HΦ, Ho, ⟨%d0, H0⟩, ⟨%d1, H1⟩⟩
  iapply (spread_body c Set.univ (grid1.coords t) _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's obligation on the body, at every point. -/
theorem spread_obligation (c : Dev nD) : BodyObligation (spreadDat (F := F) V c) (defs₀ (F := F)) Variants.none () Set.univ := fun t => by
  rw [bigSep_W1, bigSep_W1]
  exact spread_point V c t

end Cert.KernelIdeal.Hand

end
-- ==== Proof.KI.Run.lean ====
/-
  The whole run of the idealized kernel's @main, at any float instance: the rounding of the features to bf16, the
  attention call, the seven host operations that turn its result into the pre-sigmoid temporal scores, the spreading
  call.

  The core's unscoped buffers are followed as ONE valuation from the launch to the return: at launch the memory; after
  a stretch of host operations, those operations applied; after a call, the same valuation with the call's result array
  replaced by what the pipeline's write-backs leave there.  Each call is entered by handing the pipeline the buffers
  behind its windows and is left by taking them back.  In the attention call the query window and the key window are
  two windows onto the SAME buffer (the bf16 features), so on entry the core's full ownership of that buffer is dealt
  half to each, and on exit the two halves — both still holding the contents they were handed — are joined again.

  The run's conclusion reads every unscoped buffer at the last valuation; that the two argument arrays end as launched,
  and what the result array holds, are read off it.
-/
import proofs.«420913_j49830210568659_3_alg».proof.Proof.KI.Region0
import proofs.«420913_j49830210568659_3_alg».proof.Proof.KI.Region1
import proofs.«420913_j49830210568659_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents between the items of @main -/

/-- At launch. -/
abbrev memLaunch (c : Dev nD) : Valuation τ sig (Elt F) := fun b => m (c, b)
/-- After the rounding of the features: what the attention call is entered with. -/
abbrev memAttnIn (c : Dev nD) : Valuation τ sig (Elt F) := StableHlo.after hostOps0 (memLaunch m c)
/-- The same, read at the TensorCore's references. -/
abbrev attnIn : (c : Dev nD) → (b : Ref sig .tc) → Buf (Elt F) ((c : Thread nD τ).loc b) := fun c b => memAttnIn m c b
/-- After the attention call: its result array at what the write-backs leave, everything else as entered. -/
def memAttnOut (c : Dev nD) : Valuation τ sig (Elt F) :=
  Function.update (memAttnIn m c) main_v1 ((attnDat (attnIn m) c).arrAt 3 cfg0.N)
abbrev attnOut : (c : Dev nD) → (b : Ref sig .tc) → Buf (Elt F) ((c : Thread nD τ).loc b) := fun c b => memAttnOut m c b
/-- After the seven host operations: what the spreading call is entered with. -/
abbrev memSpreadIn (c : Dev nD) : Valuation τ sig (Elt F) := StableHlo.after hostOps1 (memAttnOut m c)
abbrev spreadIn : (c : Dev nD) → (b : Ref sig .tc) → Buf (Elt F) ((c : Thread nD τ).loc b) := fun c b => memSpreadIn m c b
/-- At the return: the spreading call's result array at what its write-backs leave. -/
def memEnd (c : Dev nD) : Valuation τ sig (Elt F) :=
  Function.update (memSpreadIn m c) main_v8 ((spreadDat (spreadIn m) c).arrAt 1 cfg1.N)
abbrev atEnd : (c : Dev nD) → (b : Ref sig .tc) → Buf (Elt F) ((c : Thread nD τ).loc b) := fun c b => memEnd m c b

theorem attnOut_result (c : Dev nD) : attnOut m c main_v1 = (attnDat (attnIn m) c).arrAt 3 cfg0.N := by
  exact Function.update_self ..
theorem attnOut_other (c : Dev nD) (b : Ref sig .tc) (h : b ≠ main_v1) : attnOut m c b = attnIn m c b := by
  exact Function.update_of_ne (StableHlo.devRef_ne_of_ne h) ..
theorem atEnd_result (c : Dev nD) : atEnd m c main_v8 = (spreadDat (spreadIn m) c).arrAt 1 cfg1.N := by
  exact Function.update_self ..
theorem atEnd_other (c : Dev nD) (b : Ref sig .tc) (h : b ≠ main_v8) : atEnd m c b = spreadIn m c b := by
  exact Function.update_of_ne (StableHlo.devRef_ne_of_ne h) ..

/-- No item of @main writes an argument array: the last valuation holds each as launched. -/
theorem atEnd_arg0 (c : Dev nD) : atEnd m c main_arg0 = m ((c : Thread nD τ).loc main_arg0) :=
  (atEnd_other m c main_arg0 (by decide)).trans <|
    (StableHlo.after_of_writes_sub hostOps1 _ hostOps1_writes (r := main_arg0) (by decide)).trans <|
      (attnOut_other m c main_arg0 (by decide)).trans <|
        (StableHlo.after_of_writes_sub hostOps0 _ hostOps0_writes (r := main_arg0) (by decide)).trans rfl
theorem atEnd_arg1 (c : Dev nD) : atEnd m c main_arg1 = m ((c : Thread nD τ).loc main_arg1) :=
  (atEnd_other m c main_arg1 (by decide)).trans <|
    (StableHlo.after_of_writes_sub hostOps1 _ hostOps1_writes (r := main_arg1) (by decide)).trans <|
      (attnOut_other m c main_arg1 (by decide)).trans <|
        (StableHlo.after_of_writes_sub hostOps0 _ hostOps0_writes (r := main_arg1) (by decide)).trans rfl

/-! ## The attention call's windows and the three buffers behind them -/

section Shared

variable (V : (c : Dev nD) → (b : Ref sig .tc) → Buf (Elt F) ((c : Thread nD τ).loc b))

/-- The buffers behind the attention call's four windows are three: the bf16 features (two windows), the adjacency,
    the result. -/
theorem attn_buffers (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v0) ↦{fullShare} X main_v0) ∗ (((c : Thread nD τ).loc main_arg1) ↦{fullShare} X main_arg1)
          ∗ (((c : Thread nD τ).loc main_v1) ↦{fullShare} X main_v1)) := by
  unfold Pipeline.arrBufs
  exact BI.bigSep_eq_bigSepL_of_eq [main_v0, main_arg1, main_v1] (by decide) (by decide) _

/-- The pipeline's view of them: one points-to per window, the two on the bf16 features at a half share each. -/
theorem attn_arrays (c : Dev nD) (G : (w : Fin cfg0.W) → Buf (Elt F) ((cfg0.win w).arr.view.loc (c : Thread nD τ))) :
    ((attnDat V c).arrays G : sProp 𝕄)
      = iprop((((c : Thread nD τ).loc main_v0) ↦{fullShare.left} G 0) ∗ (((c : Thread nD τ).loc main_v0) ↦{fullShare.right} G 1)
          ∗ (((c : Thread nD τ).loc main_arg1) ↦{fullShare} G 2) ∗ (((c : Thread nD τ).loc main_v1) ↦{fullShare} G 3)) := by
  unfold Dat.arrays
  rw [bigSep_W0, (arr_whole0 0).set_eq_univ, (arr_whole0 2).set_eq_univ, (arr_whole0 3).set_eq_univ]
  rfl

/-- ENTRY: the three buffers whole at the contents `V` are the pipeline's arrays at the proof data's entry contents. -/
theorem attn_deal (c : Dev nD) :
    (Pipeline.arrBufs (Ix := Unit) (Name := ℕ) (U := UR sig nD τ) (Lvl := ℕ) spec0 c (V c) : sProp 𝕄)
      ⊢ (attnDat V c).arrays ((attnDat V c).arrAt · 0) := by
  rw [attn_buffers, attn_arrays]
  iintro ⟨Hx, Ha, Ho⟩
  ihave Hx' := (pointsTo_share (PosShare.mem_left_op_right fullShare)).1 $$ Hx
  icases Hx' with ⟨Hl, Hr⟩
  isplitl [Hl]; · iexact Hl
  isplitl [Hr]; · iexact Hr
  isplitl [Ha]; · iexact Ha
  iexact Ho

/-- EXIT: the pipeline's arrays at their final contents are the three buffers whole again — the features and the
    adjacency as entered (no input window's array is written), the result at what the write-backs left. -/
theorem attn_join (c : Dev nD) :
    ((attnDat V c).arrays ((attnDat V c).arrAt · cfg0.N) : sProp 𝕄)
      ⊢ iprop((((c : Thread nD τ).loc main_v0) ↦{fullShare} V c main_v0) ∗ (((c : Thread nD τ).loc main_arg1) ↦{fullShare} V c main_arg1)
          ∗ (((c : Thread nD τ).loc main_v1) ↦{fullShare} (attnDat V c).arrAt 3 cfg0.N)) := by
  rw [attn_arrays, (attnDat V c).arrAt_in 0 rfl, (attnDat V c).arrAt_in 1 rfl, (attnDat V c).arrAt_in 2 rfl,
    attnDat_A, attnDat_A, attnDat_A]
  iintro ⟨Hl, Hr, Ha, Ho⟩
  isplitl [Hl Hr]
  · iapply (pointsTo_share (PosShare.mem_left_op_right fullShare)).2
    isplitl [Hl]; · iexact Hl
    iexact Hr
  isplitl [Ha]; · iexact Ha
  iexact Ho

end Shared

/-! ## Entering and leaving the attention call -/

/-- The unscoped buffers held at the entry valuation are the pipeline's arrays at the proof data's entry contents and
    the buffers no window reads. -/
theorem attn_enter (c : Dev nD) :
    (StableHlo.held (c : Thread nD τ) (Pipeline.ucRefs τ sig) (memAttnIn m c) : sProp 𝕄)
      ⊢ iprop((attnDat (attnIn m) c).arrays ((attnDat (attnIn m) c).arrAt · 0)
          ∗ Pipeline.unscopedRest (Ix := Unit) (Name := ℕ) (U := UR sig nD τ) (Lvl := ℕ) spec0 c (attnIn m c)) := by
  have hs : (unscopedBufs c (attnIn m c) : sProp 𝕄)
      = iprop(Pipeline.arrBufs spec0 c (attnIn m c) ∗ Pipeline.unscopedRest spec0 c (attnIn m c)) :=
    Pipeline.unscopedBufs_split₀ cfgs 0 winFacts₀0.arr_unscoped c (attnIn m c)
  rw [← Pipeline.unscopedBufs_held (Ix := Unit) (Name := ℕ) (U := UR sig nD τ) (Lvl := ℕ) c (memAttnIn m c), hs]
  exact sep_mono (attn_deal (attnIn m) c) .rfl

/-- The arrays at their final contents and the untouched buffers are the unscoped buffers held at the exit valuation. -/
theorem attn_leave (c : Dev nD) :
    iprop((attnDat (attnIn m) c).arrays ((attnDat (attnIn m) c).arrAt · cfg0.N)
        ∗ Pipeline.unscopedRest (Ix := Unit) (Name := ℕ) (U := UR sig nD τ) (Lvl := ℕ) spec0 c (attnIn m c))
      ⊢ (StableHlo.held (c : Thread nD τ) (Pipeline.ucRefs τ sig) (memAttnOut m c) : sProp 𝕄) := by
  have hs : (unscopedBufs c (attnOut m c) : sProp 𝕄)
      = iprop(Pipeline.arrBufs spec0 c (attnOut m c) ∗ Pipeline.unscopedRest spec0 c (attnOut m c)) :=
    Pipeline.unscopedBufs_split₀ cfgs 0 winFacts₀0.arr_unscoped c (attnOut m c)
  rw [← Pipeline.unscopedBufs_held (Ix := Unit) (Name := ℕ) (U := UR sig nD τ) (Lvl := ℕ) c (memAttnOut m c), hs, attn_buffers,
    attnOut_other m c main_v0 (by decide), attnOut_other m c main_arg1 (by decide), attnOut_result m c]
  refine sep_mono (attn_join (attnIn m) c) (Entails.of_eq ?_)
  unfold Pipeline.unscopedRest
  exact bigSep_congr fun b hb => by
    rw [attnOut_other m c b fun e => (Finset.mem_sdiff.mp hb).2 (e ▸ Finset.mem_image.mpr ⟨3, Finset.mem_univ _, rfl⟩)]

/-! ## Leaving the spreading call -/

/-- Each of its arrays ends at what the last valuation holds there: the input as entered, the result as written back. -/
theorem spread_final (c : Dev nD) (w : Fin cfg1.W) :
    (spreadDat (spreadIn m) c).arrAt w cfg1.N = atEnd m c (Pipeline.arrRef spec1 w) := by
  match w with
  | ⟨0, _⟩ =>
    exact ((spreadDat (spreadIn m) c).arrAt_in 0 rfl _).trans
      ((spreadDat_A (spreadIn m) c 0).trans (atEnd_other m c main_v7 (by decide)).symm)
  | ⟨1, _⟩ => exact (atEnd_result m c).symm
/-- Every other buffer is as the call found it. -/
theorem spread_rest (c : Dev nD) : ∀ b, b ∉ Finset.univ.image (Pipeline.arrRef spec1) → atEnd m c b = spreadIn m c b :=
  fun b hb => atEnd_other m c b fun e => hb (e ▸ Finset.mem_image.mpr ⟨1, Finset.mem_univ _, rfl⟩)

/-! ## The proof data of both calls, and what rides along -/

/-- No call has a prefetched table. -/
abbrev tables : (p : Fin 2) → (pcfgs (F := F) p).Adm := fun p => (cfgs p).toPCfg_adm
/-- Each call's proof data at the contents it is entered with. -/
def calls : (p : Fin 2) → (c : Dev nD) → Dat τ (Elt F) Unit ℕ (UR sig nD τ) ℕ (Pipeline.pin (pcfgs (F := F)) tables p) c
  | ⟨0, _⟩ => fun c => attnDat (attnIn m) c
  | ⟨1, _⟩ => fun c => spreadDat (spreadIn m) c
abbrev noVariants : Variants := Variants.none
/-- No core owes another anything: no level is assigned. -/
abbrev noLevels : GSem nD τ sig → Finset Unit := fun _ => ∅
abbrev level0 : GSem nD τ sig → Unit → ℕ := fun _ _ => 0
/-- Beside the buffers a core carries its generator register at some state and owes nothing. -/
abbrev riding (c : Dev nD) : sProp 𝕄 := iprop((∃ r, prngReg c r) ∗ ∃ W, owes (c : Thread nD τ) (0 : CellTallies nD τ sig Unit) W)
/-- A stretch of host operations from the valuation `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels level0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owing apart. -/
abbrev lastState (c : Dev nD) : sProp 𝕄 := iprop(StableHlo.held (c : Thread nD τ) (Pipeline.ucRefs τ sig) (memEnd m c) ∗ ∃ r, prngReg c r)

/-! ## The two calls as segments of @main -/

set_option backward.isDefEq.respectTransparency.types false in
/-- The attention call: entered from every unscoped buffer at the entry valuation, left at the exit valuation; the
    generator register goes into the body's invariant and comes back; nothing owed; no semaphore of the kernel's own. -/
def attnSeg : Pipeline.RegionSeg (pcfgs (F := F)) tables (calls m) () defs₀ noVariants noLevels level0 0 where
  win := winFacts₀0
  block_pos := block_pos0
  stage_whole := stage_whole0
  K := PEmpty
  osem k := k.elim
  ho := Pipeline.OwnSemFacts.none _
  hbody c := (attn_obligation (attnIn m) c).loose
  hwaits := Pipeline.hwaits_of_owed_zero _ _ _ _ noLevels level0 0 fun _ _ => rfl
  pre c := iprop(StableHlo.held (c : Thread nD τ) (Pipeline.ucRefs τ sig) (memAttnIn m c) ∗ riding c)
  post c := iprop(StableHlo.held (c : Thread nD τ) (Pipeline.ucRefs τ sig) (memAttnOut m c) ∗ riding c)
  X c := iprop(∃ r, prngReg c r)
  Y c := iprop(∃ r, prngReg c r)
  Z c := Pipeline.unscopedRest (Ix := Unit) (Name := ℕ) (U := UR sig nD τ) (Lvl := ℕ) spec0 c (attnIn m c)
  hentry c := by
    rw [Pipeline.ownSems0_none]
    have henter : (StableHlo.held (c : Thread nD τ) (Pipeline.ucRefs τ sig) (memAttnIn m c) : sProp 𝕄)
        ⊢ iprop((calls m 0 c).arrays ((calls m 0 c).arrAt · 0)
            ∗ Pipeline.unscopedRest (Ix := Unit) (Name := ℕ) (U := UR sig nD τ) (Lvl := ℕ) spec0 c (attnIn m c)) := attn_enter m c
    iintro ⟨⟨Hub, Hp, HO⟩, -, -⟩
    ihave H := henter $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (calls m 0 c).Φ 0 = Pipeline.ΦA spec0 c from rfl]; unfold Pipeline.ΦA
    iintro ⟨Hp, -, Hr⟩
    isplitl [Hr]; · iexact Hr
    iexact Hp
  hout c := by
    rw [Pipeline.ownSems0_none, show (calls m 0 c).Φ (Fin.last _) = Pipeline.ΦA spec0 c from rfl]; unfold Pipeline.ΦA
    iintro ⟨Hr, Hp⟩
    isplitl [Hp]; · iexact Hp
    isplitr; · iempintro
    iexact Hr
  hexit c := by
    have hleave : iprop((calls m 0 c).arrays ((calls m 0 c).arrAt · cfg0.N)
          ∗ Pipeline.unscopedRest (Ix := Unit) (Name := ℕ) (U := UR sig nD τ) (Lvl := ℕ) spec0 c (attnIn m c))
        ⊢ (StableHlo.held (c : Thread nD τ) (Pipeline.ucRefs τ sig) (memAttnOut m c) : sProp 𝕄) := attn_leave m c
    iintro ⟨Ha, HO, HY, Hrest⟩
    imodintro
    isplitl [Ha Hrest]
    · iapply hleave; isplitl [Ha] <;> iassumption
    isplitl [HY]; · iexact HY
    unfold Pipeline.Dat.owesAt Pipeline.owesWithin
    icases HO with ⟨%W, -, HO⟩; iexists W; iexact HO

set_option backward.isDefEq.respectTransparency.types false in
/-- The spreading call: entered from every unscoped buffer at its entry valuation, left at the last valuation. Its two
    windows read distinct buffers, each held whole. -/
def spreadSeg : Pipeline.RegionSeg (pcfgs (F := F)) tables (calls m) () defs₀ noVariants noLevels level0 1 where
  win := launch1.win.to₀
  block_pos := launch1.block_pos
  stage_whole := launch1.stage_whole
  K := PEmpty
  osem k := k.elim
  ho := Pipeline.OwnSemFacts.none _
  hbody c := (spread_obligation (spreadIn m) c).loose
  hwaits := Pipeline.hwaits_of_owed_zero _ _ _ _ noLevels level0 1 fun _ _ => rfl
  pre c := iprop(StableHlo.held (c : Thread nD τ) (Pipeline.ucRefs τ sig) (memSpreadIn m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (spreadIn m c)
  hentry c := by
    rw [Pipeline.ownSems0_none]
    have hsplit := Pipeline.arrays_of_unscopedBufs (p := 1) (pcfgs (F := F)) tables (calls m) launch1.win launch1.arr_whole c
      ((calls m 1 c).share_full fun _ => rfl) (spreadIn m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (calls m 1 c).Φ 0 = Pipeline.ΦA spec1 c from rfl]; unfold Pipeline.ΦA
    iintro ⟨Hp, -, Hr⟩
    isplitl [Hr]; · iexact Hr
    iexact Hp
  hout c := by
    rw [Pipeline.ownSems0_none, show (calls m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (calls m) ((calls m 1 c).share_full fun _ => rfl)
      (spreadIn m c) (atEnd m c) ((calls m 1 c).arrAt · cfg1.N) (spread_final m c) (spread_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

abbrev items : List (Pipeline.Seg (pcfgs (F := F)) tables (calls m) () defs₀ noVariants noLevels level0) :=
  [ .host (hostSeg hostOps0 hostOps0_sub hostOps0_fresh (memLaunch m)),
    .region (attnSeg m),
    .host (hostSeg hostOps1 hostOps1_sub hostOps1_fresh (memAttnOut m)),
    .region (spreadSeg m) ]
/-- @main is the run of those items. -/
theorem main_items (c : Dev nD) : main (F := F) c = Pipeline.Seg.run (items m) := (main_chain c).trans (by chain_rfl)

set_option backward.isDefEq.respectTransparency.types false in
/-- From any memory with zero counters every weakly fair execution of @main terminates, nothing faulting, and in
    every final state each unscoped buffer holds what the last valuation says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = memEnd m c b) :=
  Pipeline.θ_run_regions_kit (pcfgs (F := F)) tables (calls m) () cellOf_inj emb₁ defs₀ noVariants noLevels level0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memLaunch m c) ∗ riding c)) (Tₙ := lastState m)
    (hch := ⟨fun _ => .rfl, fun _ => .rfl, fun _ => .rfl, fun _ => .rfl, fun _ => .rfl⟩)
    (hinit := by
      refine Pipeline.initEach noLevels level0 fun c => ?_
      rw [show unscopedBufs c (fun b => m ((c : Thread nD τ).loc b)) = StableHlo.held (c : Thread nD τ) (Pipeline.ucRefs τ sig) (memLaunch m c)
        from Pipeline.unscopedBufs_held c (memLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memEnd m c b)
    (hfin := fun c s' => by
      iintro ⟨⟨Hh, -⟩, HSI⟩
      unfold StableHlo.held
      imodintro
      iapply (pointsTo_read_all (Pipeline.ucRefs τ sig) (fun b => (((c : Thread nD τ)).1, b)) (memEnd m c) s')
      isplitl [Hh] <;> iassumption)
    (hQ := fun s h c => h c)

/-- What the certificate needs of the run: the result array at what the spreading call's write-backs leave, the two
    argument arrays as launched. -/
theorem run_result : θ_run defs (onTc (τ := τ) (main (F := F))) ⟨m, fun _ => 0, ρ⟩ (fun r => ∀ c : Dev nD,
      r.2.mem ((c.tc : Thread nD τ).loc main_v8) = (spreadDat (spreadIn m) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_unscoped main_v8 (by decide))).trans (atEnd_result m c),
     (h c _ (mem_unscoped main_arg0 (by decide))).trans (atEnd_arg0 m c),
     (h c _ (mem_unscoped main_arg1 (by decide))).trans (atEnd_arg1 m c)⟩) (run_all m ρ)

/-- The frame: the program runs to its end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.KernelIdeal.Hand

end
-- ==== Proof.Spec.lean ====
/-
  What both programs compute, index by index over the extended reals, as functions of the two argument arrays: the
  features `x` of shape 8 × 1024 × 128 (time step, node, channel) and the adjacency words `a` of shape 1024 × 1024.

  * For every time step the nodes attend to one another: the score of node `n` against node `k` is the inner product
    of their feature rows times the constant `c` (the f32 word nearest 1/√128, the same word in both programs); where
    the adjacency word `a[n, k]` is not positive the score is replaced by the finite fill word `−999999995904`; each row
    is turned into weights by the softmax in its usual shifted form — subtract the row's maximum, exponentiate, divide by
    the row's sum —; and node `n`'s new feature row is the weighted sum of all feature rows (`node`).
  * The temporal scores of a node are the inner products of its new feature rows at two time steps, times `c` again;
    both programs compute them from the node features by the same three host operations, so they are not spelled here.
  * The result, of shape 8192 × 8192, holds at row `1024·s + j` and column `1024·t + i` the logistic function of node
    `j`'s temporal score between steps `t` and `s`, whatever `i` (`tail`).  The kernel gets there in two hops: its host
    code re-lays the scores as an 8 × 8 × 1024 × 1 array (`relay`) and its second call spreads that array (`spread`).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SX : Shape := ⟨3, ![8, 1024, 128]⟩
abbrev SA : Shape := ⟨2, ![1024, 1024]⟩
abbrev ST : Shape := ⟨3, ![1024, 8, 8]⟩
abbrev SV : Shape := ⟨4, ![8, 8, 1024, 1]⟩
abbrev SO : Shape := ⟨2, ![8192, 8192]⟩

/-- The scale, the fill for masked scores and the starting value of a row's maximum, as the words both programs print. -/
def scaleC : EReal := Ideal.ofBits .f32 0x3DB504F3#32
def fillC : EReal := Ideal.ofBits .f32 0xD368D4A5#32
def botC : EReal := Ideal.ofBits .f32 0xFF800000#32

section Attention

variable (x : SX.Idx → EReal) (a : SA.Idx → BitVec 32)

/-- The scaled score of node `n` against node `k` at time step `t`. -/
def score (t : Fin 8) (n k : Fin 1024) : EReal := (∑ d : Fin 128, x (ix3 t n d) * x (ix3 t k d)) * scaleC
/-- The score where the adjacency word is positive (as a signed word), the fill elsewhere. -/
def masked (t : Fin 8) (n k : Fin 1024) : EReal :=
  Scalar.select (IntOp.cmpi .sgt (a (ix2 n k)) 0#32) (score x t n k) fillC
/-- The maximum of row `n`, folded from `−∞`. -/
def rowMax (t : Fin 8) (n : Fin 1024) : EReal := Finset.univ.fold max botC fun k : Fin 1024 => masked x a t n k
/-- The shifted exponentials, their row sum, the weights. -/
def expo (t : Fin 8) (n k : Fin 1024) : EReal := Ideal.exp (masked x a t n k - rowMax x a t n)
def denom (t : Fin 8) (n : Fin 1024) : EReal := ∑ k : Fin 1024, expo x a t n k
def weight (t : Fin 8) (n k : Fin 1024) : EReal := Ideal.div (expo x a t n k) (denom x a t n)
/-- Node `n`'s new feature in channel `d` at time step `t`. -/
def nodeAt (t : Fin 8) (n : Fin 1024) (d : Fin 128) : EReal := ∑ k : Fin 1024, weight x a t n k * x (ix3 t k d)
/-- The node features as an array. -/
def node : SX.Idx → EReal := fun i => nodeAt x a (i 0) (i 1) (i 2)

theorem node_apply (t : Fin 8) (n : Fin 1024) (d : Fin 128) : node x a (ix3 t n d) = nodeAt x a t n d := rfl

end Attention

section Tail

/-- Row `r` of the result belongs to source step `r / 1024` and node `r % 1024`; column `q` to target step `q / 1024`. -/
def stepOf (r : Fin 8192) : Fin 8 := ⟨r.val / 1024, by have := r.isLt; omega⟩
def nodeOf (r : Fin 8192) : Fin 1024 := ⟨r.val % 1024, Nat.mod_lt _ (by norm_num)⟩

/-- The result from the temporal scores `y[n, t, s]`. -/
def tail (y : ST.Idx → EReal) : SO.Idx → EReal := fun i => Ideal.logistic (y (ix3 (nodeOf (i 0)) (stepOf (i 1)) (stepOf (i 0))))
/-- The kernel's re-laid scores: `z[s, t, n, 0] = y[n, t, s]`. -/
def relay (y : ST.Idx → EReal) : SV.Idx → EReal := fun j => y (ix3 (j 2) (j 1) (j 0))
/-- The kernel's second call on the re-laid scores. -/
def spread (z : SV.Idx → EReal) : SO.Idx → EReal := fun i => Ideal.logistic (z (ix4 (stepOf (i 0)) (stepOf (i 1)) (nodeOf (i 0)) (0 : Fin 1)))

/-- Spreading the re-laid scores is the result. -/
theorem spread_relay (y : ST.Idx → EReal) : spread (relay y) = tail y := rfl

end Tail

end Cert.Spec

end
-- ==== Proof.KI.Host.lean ====
/-
  The host operations of the idealized kernel's @main, read at the ideal instance.

  * Before the attention call the features are rounded to bf16: no change on extended reals.  So the attention call
    reads the argument arrays themselves.
  * Between the calls seven operations turn the attention call's result `z` (time step, node, channel) into the array
    the spreading call reads: transpose to (node, time step, channel); the batched inner products of each node's rows
    at two time steps; times the scale — the temporal scores `y[n, t, s]` (`tscores`) —; then the transposition to
    (s, t, n) and a trailing unit axis: `relay` of the specification.
-/
import proofs.«420913_j49830210568659_3_alg».proof.Proof.KI.Run
import proofs.«420913_j49830210568659_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Hand

open Idealize.ShloMosaic Idealize.ShloMosaic.TcCoe Idealize.ShloMosaic.ValueIdx Idealize.ShloMosaic.StableHlo
open Cert.KernelIdeal Cert.KernelIdeal.Gen

/-- The temporal scores of node features `z`: the three host operations both programs apply to them. -/
def tscores (z : FVec Ideal S8x1024x128 .f32) : FVec Ideal S1024x8x8 .f32 :=
  mulf (Host.dotGeneral dot_S1024x8x128_S1024x8x128_S1024x8x8_2_2_1_1_0_0 none
      (transpose S1024x8x128 [1, 0, 2] z transposes_S8x1024x128_S1024x8x128_1_0_2)
      (transpose S1024x8x128 [1, 0, 2] z transposes_S8x1024x128_S1024x8x128_1_0_2))
    (broadcastInDim S1024x8x8 ![] bcast_S_S1024x8x8 (constant S_ .f32 0x3DB504F3#32))

/-- Transposing `y[n, t, s]` to `(s, t, n)` and appending a unit axis is the specification's `relay`. -/
theorem relay_eq (y : FVec Ideal S1024x8x8 .f32) :
    (broadcastInDim S8x8x1024x1 ![0, 1, 2] bcast_S8x8x1024_S8x8x1024x1_0_1_2
        (transpose S8x8x1024 [2, 1, 0] y transposes_S1024x8x8_S8x8x1024_2_1_0) : Cert.Spec.SV.Idx → EReal)
      = Cert.Spec.relay y := by
  funext j
  rw [broadcastInDim_apply _ bcast_S8x8x1024_S8x8x1024x1_0_1_2 _ j
    (fun a => match a with
      | ⟨0, _⟩ => ⟨(j 0).val, (j 0).isLt⟩
      | ⟨1, _⟩ => ⟨(j 1).val, (j 1).isLt⟩
      | ⟨2, _⟩ => ⟨(j 2).val, (j 2).isLt⟩)
    (fun a => match a with
      | ⟨0, _⟩ => by show (j 0).val = if (8 : Nat) = 1 then 0 else (j 0).val; rw [if_neg (by decide)]
      | ⟨1, _⟩ => by show (j 1).val = if (8 : Nat) = 1 then 0 else (j 1).val; rw [if_neg (by decide)]
      | ⟨2, _⟩ => by show (j 2).val = if (1024 : Nat) = 1 then 0 else (j 2).val; rw [if_neg (by decide)])]
  rw [transpose_apply [2, 1, 0] y transposes_S1024x8x8_S8x8x1024_2_1_0 _
    (fun a => match a with
      | ⟨0, _⟩ => ⟨(j 2).val, (j 2).isLt⟩
      | ⟨1, _⟩ => ⟨(j 1).val, (j 1).isLt⟩
      | ⟨2, _⟩ => ⟨(j 0).val, (j 0).isLt⟩)
    (fun b => match b with
      | ⟨0, _⟩ => rfl
      | ⟨1, _⟩ => rfl
      | ⟨2, _⟩ => rfl)]
  unfold Cert.Spec.relay
  refine congrArg y (funext fun a => Fin.ext ?_)
  match a with
  | ⟨0, _⟩ => rfl
  | ⟨1, _⟩ => rfl
  | ⟨2, _⟩ => rfl

variable (m : (ℓ : Loc nD τ sig) → Buf (Elt Ideal) ℓ)

/-- The attention call reads the feature argument itself … -/
theorem attnIn_features (c : Dev nD) :
    (attnIn m c main_v0 : Cert.Spec.SX.Idx → EReal) = m ((c : Thread nD τ).loc main_arg0) := by
  show StableHlo.after hostOps0 (memLaunch m c) (Proc.devRef .tc main_v0) = _
  after_results
  rfl

/-- … and the adjacency argument. -/
theorem attnIn_adj (c : Dev nD) : attnIn m c main_arg1 = m ((c : Thread nD τ).loc main_arg1) :=
  StableHlo.after_of_writes_sub hostOps0 _ hostOps0_writes (r := main_arg1) (by decide)

/-- The spreading call reads the re-laid temporal scores of the attention call's result. -/
theorem spreadIn_scores (c : Dev nD) :
    (spreadIn m c main_v7 : Cert.Spec.SV.Idx → EReal) = Cert.Spec.relay (tscores (attnOut m c main_v1)) := by
  show StableHlo.after hostOps1 (memAttnOut m c) (Proc.devRef .tc main_v7) = _
  after_results
  exact relay_eq _

end Cert.KernelIdeal.Hand

end
-- ==== Proof.KI.AttnValue.lean ====
/-
  What the attention call leaves in its result array, at the ideal instance: the node features of the specification,
  as a function of the two arrays the call reads (the features as the call finds them, the adjacency words).

  The body's stored value is read stage by stage — inner products, scale, mask, row maximum, shifted exponentials,
  row sums, weights, weighted sums of the value rows — each stage at an index by coordinates; under the hypothesis that
  the three blocks are the rows a point reads of the two arrays, each stage is the specification's function of the same
  name; the blocks at a grid point are those rows (a block's element sits at block index × block size + its coordinate);
  so every point writes back its block of the node features, and the 32 blocks cover the result array.
-/
import proofs.«420913_j49830210568659_3_alg».proof.Proof.KI.Region0
import proofs.«420913_j49830210568659_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

namespace Attn

/-! ## The body's arithmetic, stage by stage

The body's one stored value is a chain of matrix operations on the query block `xq` (256 rows), the key block `xk`
(1024 rows, also the values) and the adjacency band `xa` (256 × 1024 words).  Each stage is named here as a matrix
of its own, the stored value is the last of them re-laid as a 1 × 256 × 128 block, and each stage is read at an
index by coordinates. -/

section Stages

variable (xq : FVec Ideal S1x256x128 .bf16) (xk : FVec Ideal S1x1024x128 .bf16) (xa : IVec S256x1024 32)

/-- The query rows as a 256 × 128 matrix. -/
def qMat : FVec Ideal S256x128 .bf16 := shapeCast S256x128 xq shapeCasts_S1x256x128_S256x128
/-- The key rows as a 1024 × 128 matrix. -/
def kMat : FVec Ideal S1024x128 .bf16 := shapeCast S1024x128 xk shapeCasts_S1x1024x128_S1024x128
/-- The inner products of query rows with key rows. -/
def dotMat : FVec Ideal S256x1024 .f32 :=
  matmul dot_S256x128_S1024x128_S256x1024_1_1_0_0_n_n none (qMat xq) (kMat xk) (constant S256x1024 .f32 0x00000000#32)
/-- The scaled scores. -/
def scoreMat : FVec Ideal S256x1024 .f32 :=
  mulf (dotMat xq xk) (broadcast S256x1024 (Scalar.ofBits .f32 0x3DB504F3#32))
/-- The scores where the adjacency word is positive, the fill elsewhere. -/
def maskMat : FVec Ideal S256x1024 .f32 :=
  select (cmpi .sgt xa (broadcast S256x1024 0#32)) (scoreMat xq xk) (broadcast S256x1024 (Scalar.ofBits .f32 0xD368D4A5#32))
/-- Each row's maximum. -/
def maxVec : FVec Ideal S256 .f32 :=
  multiReduction .maximumf [1] S256 (maskMat xq xk xa) 0xFF800000#32 reduces_S256x1024_S256 (.inl rfl) rfl
/-- The exponentials of the masked scores shifted by their row's maximum. -/
def expMat : FVec Ideal S256x1024 .f32 :=
  exp (subf (maskMat xq xk xa)
    (broadcastTo S256x1024 (shapeCast S256x1 (maxVec xq xk xa) shapeCasts_S256_S256x1) broadcasts_S256x1_S256x1024))
/-- Each row's sum of exponentials. -/
def sumVec : FVec Ideal S256 .f32 :=
  multiReduction .add [1] S256 (expMat xq xk xa) 0x00000000#32 reduces_S256x1024_S256 (.inl rfl) rfl
/-- The attention weights (the change of format is the identity on extended reals). -/
def weightMat : FVec Ideal S256x1024 .bf16 :=
  truncf .bf16 (divf (expMat xq xk xa)
    (broadcastTo S256x1024 (shapeCast S256x1 (sumVec xq xk xa) shapeCasts_S256_S256x1) broadcasts_S256x1_S256x1024)) bitsLt_bf16_f32
/-- The weighted sums of the value rows. -/
def outMat : FVec Ideal S256x128 .f32 :=
  matmul dot_S256x1024_S1024x128_S256x128_1_0_0_1_n_n none (weightMat xq xk xa) (kMat xk) (constant S256x128 .f32 0x00000000#32)

/-- The body's stored value is the last stage, re-laid as a block. -/
theorem pay_eq_stages :
    k0_pay1 (F := Ideal) xq xk xa = shapeCast S1x256x128 (outMat xq xk xa) shapeCasts_S256x128_S1x256x128 := rfl

end Stages

/-! ## The stages at an index -/

section StagesAt

variable (xq : FVec Ideal S1x256x128 .bf16) (xk : FVec Ideal S1x1024x128 .bf16) (xa : IVec S256x1024 32)

theorem qMat_apply (r : Fin 256) (d : Fin 128) : qMat xq (ix2 r d) = xq (ix3 (0 : Fin 1) r d) := by
  unfold qMat
  exact shapeCast_1ab_ab_apply xq shapeCasts_S1x256x128_S256x128 r d

theorem kMat_apply (k : Fin 1024) (d : Fin 128) : kMat xk (ix2 k d) = xk (ix3 (0 : Fin 1) k d) := by
  unfold kMat
  exact shapeCast_1ab_ab_apply xk shapeCasts_S1x1024x128_S1024x128 k d

/-! The first product contracts the channel axis of both operands: at (row, key) and channel `d` it reads the query
matrix at (row, `d`) and the key matrix at (key, `d`). -/

theorem lhs_scores_0 (i : S256x1024.Idx) (q : dot_S256x128_S1024x128_S256x1024_1_1_0_0_n_n.contr.Idx) :
    (dot_S256x128_S1024x128_S256x1024_1_1_0_0_n_n.lhsIdx i q 0).val = (i 0).val := by
  unfold DotDims.lhsIdx
  rw [dif_neg (show ¬(0 : Fin S256x128.rank) ∈ dot_S256x128_S1024x128_S256x1024_1_1_0_0_n_n.lhsBatch by decide), dif_pos (show (0 : Fin S256x128.rank) ∈ dot_S256x128_S1024x128_S256x1024_1_1_0_0_n_n.lhsNonContracting by decide)]
  rfl
theorem lhs_scores_1 (i : S256x1024.Idx) (q : dot_S256x128_S1024x128_S256x1024_1_1_0_0_n_n.contr.Idx) :
    (dot_S256x128_S1024x128_S256x1024_1_1_0_0_n_n.lhsIdx i q 1).val = (q ⟨0, by decide⟩).val :=
  dot_S256x128_S1024x128_S256x1024_1_1_0_0_n_n.lhsIdx_val_of_single rfl i q
theorem rhs_scores_0 (i : S256x1024.Idx) (q : dot_S256x128_S1024x128_S256x1024_1_1_0_0_n_n.contr.Idx) :
    (dot_S256x128_S1024x128_S256x1024_1_1_0_0_n_n.rhsIdx i q 0).val = (i 1).val := by
  unfold DotDims.rhsIdx
  rw [dif_neg (show ¬(0 : Fin S1024x128.rank) ∈ dot_S256x128_S1024x128_S256x1024_1_1_0_0_n_n.rhsBatch by decide), dif_pos (show (0 : Fin S1024x128.rank) ∈ dot_S256x128_S1024x128_S256x1024_1_1_0_0_n_n.rhsNonContracting by decide)]
  rfl
theorem rhs_scores_1 (i : S256x1024.Idx) (q : dot_S256x128_S1024x128_S256x1024_1_1_0_0_n_n.contr.Idx) :
    (dot_S256x128_S1024x128_S256x1024_1_1_0_0_n_n.rhsIdx i q 1).val = (q ⟨0, by decide⟩).val :=
  dot_S256x128_S1024x128_S256x1024_1_1_0_0_n_n.rhsIdx_val_of_single rfl i q

theorem dotMat_apply (r : Fin 256) (k : Fin 1024) :
    dotMat xq xk (ix2 r k) = ∑ d : Fin 128, xq (ix3 (0 : Fin 1) r d) * xk (ix3 (0 : Fin 1) k d) := by
  unfold dotMat
  refine (Ideal.matmul_constant_zero_apply dot_S256x128_S1024x128_S256x1024_1_1_0_0_n_n none (qMat xq) (kMat xk) (ix2 r k)).trans ?_
  rw [← Equiv.sum_comp (contrEquiv1 dot_S256x128_S1024x128_S256x1024_1_1_0_0_n_n 128 rfl rfl).symm]
  refine Finset.sum_congr rfl fun d _ => ?_
  have hd := contrEquiv1_symm_val dot_S256x128_S1024x128_S256x1024_1_1_0_0_n_n 128 rfl rfl d
  have el : dot_S256x128_S1024x128_S256x1024_1_1_0_0_n_n.lhsIdx (ix2 r k) ((contrEquiv1 dot_S256x128_S1024x128_S256x1024_1_1_0_0_n_n 128 rfl rfl).symm d) = ix2 r d := funext fun a => Fin.ext (by
    match a with
    | ⟨0, _⟩ => exact lhs_scores_0 _ _
    | ⟨1, _⟩ => exact (lhs_scores_1 _ _).trans hd)
  have er : dot_S256x128_S1024x128_S256x1024_1_1_0_0_n_n.rhsIdx (ix2 r k) ((contrEquiv1 dot_S256x128_S1024x128_S256x1024_1_1_0_0_n_n 128 rfl rfl).symm d) = ix2 k d := funext fun a => Fin.ext (by
    match a with
    | ⟨0, _⟩ => exact rhs_scores_0 _ _
    | ⟨1, _⟩ => exact (rhs_scores_1 _ _).trans hd)
  rw [el, er, qMat_apply, kMat_apply]

theorem scoreMat_apply (r : Fin 256) (k : Fin 1024) :
    scoreMat xq xk (ix2 r k) = (∑ d : Fin 128, xq (ix3 (0 : Fin 1) r d) * xk (ix3 (0 : Fin 1) k d)) * Cert.Spec.scaleC := by
  show dotMat xq xk (ix2 r k) * Cert.Spec.scaleC = _
  rw [dotMat_apply]

theorem maskMat_apply (r : Fin 256) (k : Fin 1024) :
    maskMat xq xk xa (ix2 r k)
      = Scalar.select (IntOp.cmpi .sgt (xa (ix2 r k)) 0#32) (scoreMat xq xk (ix2 r k)) Cert.Spec.fillC := rfl

/-- The reduced axis put back: row `r` of the vector with key `k` inserted is entry (`r`, `k`) of the matrix. -/
theorem lift_row (r : Fin 256) (k : Fin 1024) : reduces_S256x1024_S256.lift (ix1 r) k = ix2 r k :=
  funext fun a => Fin.ext (by
    match a with
    | ⟨0, _⟩ => rfl
    | ⟨1, _⟩ => rfl)

theorem maxVec_apply (r : Fin 256) :
    maxVec xq xk xa (ix1 r) = Finset.univ.fold max Cert.Spec.botC (fun k : Fin 1024 => maskMat xq xk xa (ix2 r k)) := by
  unfold maxVec
  refine (Ideal.multiReduction_maximumf_single (maskMat xq xk xa) 0xFF800000#32 reduces_S256x1024_S256 (.inl rfl) rfl (ix1 r)).trans ?_
  exact congrArg (Finset.univ.fold max Cert.Spec.botC) (funext fun k => congrArg (maskMat xq xk xa) (lift_row r k))

/-- A vector of 256 row values made a column and spread over the 1024 keys reads its row's value everywhere. -/
theorem column_apply (v : FVec Ideal S256 .f32) (r : Fin 256) (k : Fin 1024) :
    broadcastTo S256x1024 (shapeCast S256x1 v shapeCasts_S256_S256x1) broadcasts_S256x1_S256x1024 (ix2 r k) = v (ix1 r) := by
  refine (broadcastTo_apply (shapeCast S256x1 v shapeCasts_S256_S256x1) broadcasts_S256x1_S256x1024 (ix2 r k) (ix2 r (0 : Fin 1)) fun a => ?_).trans ?_
  · match a with
    | ⟨0, _⟩ => show r.val = if (256 : Nat) = 1 then 0 else r.val; rw [if_neg (by decide)]
    | ⟨1, _⟩ => show (0 : Nat) = if (1 : Nat) = 1 then 0 else k.val; rw [if_pos rfl]
  · exact shapeCast_apply v shapeCasts_S256_S256x1 (ix2 r (0 : Fin 1)) (ix1 r) (by
      rw [Shape.rowMajor_val_one, Shape.rowMajor_val_two]
      show r.val = r.val * 1 + 0
      omega)

theorem expMat_apply (r : Fin 256) (k : Fin 1024) :
    expMat xq xk xa (ix2 r k) = Ideal.exp (maskMat xq xk xa (ix2 r k) - maxVec xq xk xa (ix1 r)) := by
  show Ideal.exp (maskMat xq xk xa (ix2 r k) - broadcastTo S256x1024 (shapeCast S256x1 (maxVec xq xk xa) shapeCasts_S256_S256x1) broadcasts_S256x1_S256x1024 (ix2 r k)) = _
  rw [column_apply]

theorem sumVec_apply (r : Fin 256) :
    sumVec xq xk xa (ix1 r) = ∑ k : Fin 1024, expMat xq xk xa (ix2 r k) := by
  unfold sumVec
  refine (Ideal.multiReduction_add_single (expMat xq xk xa) 0x00000000#32 reduces_S256x1024_S256 (.inl rfl) rfl (ix1 r)).trans ?_
  exact Finset.sum_congr rfl fun k _ => congrArg (expMat xq xk xa) (lift_row r k)

theorem weightMat_apply (r : Fin 256) (k : Fin 1024) :
    weightMat xq xk xa (ix2 r k) = Ideal.div (expMat xq xk xa (ix2 r k)) (sumVec xq xk xa (ix1 r)) := by
  show Ideal.div (expMat xq xk xa (ix2 r k)) (broadcastTo S256x1024 (shapeCast S256x1 (sumVec xq xk xa) shapeCasts_S256_S256x1) broadcasts_S256x1_S256x1024 (ix2 r k)) = _
  rw [column_apply]

/-! The second product contracts the key axis: at (row, channel) and key `k` it reads the weights at (row, `k`) and the
key matrix at (`k`, channel). -/

theorem lhs_out_0 (i : S256x128.Idx) (q : dot_S256x1024_S1024x128_S256x128_1_0_0_1_n_n.contr.Idx) :
    (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem lhs_out_1 (i : S256x128.Idx) (q : dot_S256x1024_S1024x128_S256x128_1_0_0_1_n_n.contr.Idx) :
    (dot_S256x1024_S1024x128_S256x128_1_0_0_1_n_n.lhsIdx i q 1).val = (q ⟨0, by decide⟩).val :=
  dot_S256x1024_S1024x128_S256x128_1_0_0_1_n_n.lhsIdx_val_of_single rfl i q
theorem rhs_out_0 (i : S256x128.Idx) (q : dot_S256x1024_S1024x128_S256x128_1_0_0_1_n_n.contr.Idx) :
    (dot_S256x1024_S1024x128_S256x128_1_0_0_1_n_n.rhsIdx i q 0).val = (q ⟨0, by decide⟩).val :=
  dot_S256x1024_S1024x128_S256x128_1_0_0_1_n_n.rhsIdx_val_of_single rfl i q
theorem rhs_out_1 (i : S256x128.Idx) (q : dot_S256x1024_S1024x128_S256x128_1_0_0_1_n_n.contr.Idx) :
    (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

theorem outMat_apply (r : Fin 256) (d : Fin 128) :
    outMat xq xk xa (ix2 r d) = ∑ k : Fin 1024, weightMat xq xk xa (ix2 r k) * xk (ix3 (0 : Fin 1) k d) := by
  unfold outMat
  refine (Ideal.matmul_constant_zero_apply dot_S256x1024_S1024x128_S256x128_1_0_0_1_n_n none (weightMat xq xk xa) (kMat xk) (ix2 r d)).trans ?_
  rw [← Equiv.sum_comp (contrEquiv1 dot_S256x1024_S1024x128_S256x128_1_0_0_1_n_n 1024 rfl rfl).symm]
  refine Finset.sum_congr rfl fun k _ => ?_
  have hk := contrEquiv1_symm_val dot_S256x1024_S1024x128_S256x128_1_0_0_1_n_n 1024 rfl rfl k
  have el : dot_S256x1024_S1024x128_S256x128_1_0_0_1_n_n.lhsIdx (ix2 r d) ((contrEquiv1 dot_S256x1024_S1024x128_S256x128_1_0_0_1_n_n 1024 rfl rfl).symm k) = ix2 r k := funext fun a => Fin.ext (by
    match a with
    | ⟨0, _⟩ => exact lhs_out_0 _ _
    | ⟨1, _⟩ => exact (lhs_out_1 _ _).trans hk)
  have er : dot_S256x1024_S1024x128_S256x128_1_0_0_1_n_n.rhsIdx (ix2 r d) ((contrEquiv1 dot_S256x1024_S1024x128_S256x128_1_0_0_1_n_n 1024 rfl rfl).symm k) = ix2 k d := funext fun a => Fin.ext (by
    match a with
    | ⟨0, _⟩ => exact (rhs_out_0 _ _).trans hk
    | ⟨1, _⟩ => exact rhs_out_1 _ _)
  rw [el, er, kMat_apply]

/-- The stored block at (unit, row, channel) is the last stage at (row, channel). -/
theorem pay_apply (u : Fin 1) (r : Fin 256) (d : Fin 128) :
    k0_pay1 (F := Ideal) xq xk xa (ix3 u r d) = outMat xq xk xa (ix2 r d) := by
  rw [pay_eq_stages]
  exact shapeCast_ab_1ab_apply (outMat xq xk xa) shapeCasts_S256x128_S1x256x128 u r d

end StagesAt

/-! ## The stages are the specification's, when the blocks are the arrays' -/

/-- Row `r` of band `b` of the 1024 nodes: node `256·b + r`. -/
def rowOf (b : Fin 4) (r : Fin 256) : Fin 1024 := ⟨256 * b.val + r.val, by have := b.isLt; have := r.isLt; omega⟩

/-- The three blocks are what the point of time step `s` and band `b` reads of the features `x` and the adjacency
    words `a`: the band's 256 rows of step `s`, all rows of step `s`, the band's rows of `a`. -/
structure Reads (x : Cert.Spec.SX.Idx → EReal) (a : Cert.Spec.SA.Idx → BitVec 32) (s : Fin 8) (b : Fin 4)
    (xq : FVec Ideal S1x256x128 .bf16) (xk : FVec Ideal S1x1024x128 .bf16) (xa : IVec S256x1024 32) : Prop where
  query : ∀ (r : Fin 256) (d : Fin 128), xq (ix3 (0 : Fin 1) r d) = x (ix3 s (rowOf b r) d)
  keys : ∀ (k : Fin 1024) (d : Fin 128), xk (ix3 (0 : Fin 1) k d) = x (ix3 s k d)
  band : ∀ (r : Fin 256) (k : Fin 1024), xa (ix2 r k) = a (ix2 (rowOf b r) k)

section ToSpec

variable {x : Cert.Spec.SX.Idx → EReal} {a : Cert.Spec.SA.Idx → BitVec 32} {s : Fin 8} {b : Fin 4}
variable {xq : FVec Ideal S1x256x128 .bf16} {xk : FVec Ideal S1x1024x128 .bf16} {xa : IVec S256x1024 32}

theorem score_eq (h : Reads x a s b xq xk xa) (r : Fin 256) (k : Fin 1024) :
    scoreMat xq xk (ix2 r k) = Cert.Spec.score x s (rowOf b r) k := by
  rw [scoreMat_apply]
  unfold Cert.Spec.score
  exact congrArg (· * Cert.Spec.scaleC) (Finset.sum_congr rfl fun d _ => by rw [h.query, h.keys])

theorem masked_eq (h : Reads x a s b xq xk xa) (r : Fin 256) (k : Fin 1024) :
    maskMat xq xk xa (ix2 r k) = Cert.Spec.masked x a s (rowOf b r) k := by
  rw [maskMat_apply, score_eq h, h.band]
  rfl

theorem rowMax_eq (h : Reads x a s b xq xk xa) (r : Fin 256) :
    maxVec xq xk xa (ix1 r) = Cert.Spec.rowMax x a s (rowOf b r) := by
  rw [maxVec_apply]
  unfold Cert.Spec.rowMax
  exact congrArg (Finset.univ.fold max Cert.Spec.botC) (funext fun k => masked_eq h r k)

theorem expo_eq (h : Reads x a s b xq xk xa) (r : Fin 256) (k : Fin 1024) :
    expMat xq xk xa (ix2 r k) = Cert.Spec.expo x a s (rowOf b r) k := by
  rw [expMat_apply, masked_eq h, rowMax_eq h]
  rfl

theorem denom_eq (h : Reads x a s b xq xk xa) (r : Fin 256) :
    sumVec xq xk xa (ix1 r) = Cert.Spec.denom x a s (rowOf b r) := by
  rw [sumVec_apply]
  unfold Cert.Spec.denom
  exact Finset.sum_congr rfl fun k _ => expo_eq h r k

theorem weight_eq (h : Reads x a s b xq xk xa) (r : Fin 256) (k : Fin 1024) :
    weightMat xq xk xa (ix2 r k) = Cert.Spec.weight x a s (rowOf b r) k := by
  rw [weightMat_apply, expo_eq h, denom_eq h]
  rfl

/-- The stored block at (unit, row `r`, channel `d`) is the specification's node feature of node `256·b + r`. -/
theorem pay_node (h : Reads x a s b xq xk xa) (j : S1x256x128.Idx) :
    k0_pay1 (F := Ideal) xq xk xa j = Cert.Spec.nodeAt x a s (rowOf b (j 1)) (j 2) := by
  obtain ⟨u, r, d, rfl⟩ : ∃ (u : Fin 1) (r : Fin 256) (d : Fin 128), j = ix3 u r d := ⟨j 0, j 1, j 2, eq_ix3 j⟩
  rw [pay_apply, outMat_apply]
  unfold Cert.Spec.nodeAt
  exact Finset.sum_congr rfl fun k _ => by rw [weight_eq h, h.keys]

end ToSpec

/-! ## What a grid point reads, and where it writes

Grid point `t` of the 8 × 4 grid is time step `t / 4`, band `t % 4`.  A block's element sits in its array, on each
axis, at the block index times the block's size plus the element's coordinate inside the block. -/

theorem pt_lt (t : Fin cfg0.N) : t.val < 32 := lt_of_lt_of_eq t.isLt (show cfg0.N = 32 from N_0)

/-- The time step of grid point `t`. -/
def stepAt (t : Fin cfg0.N) : Fin 8 := ⟨t.val / 4, by have := pt_lt t; omega⟩
/-- The band of query rows of grid point `t`. -/
def bandAt (t : Fin cfg0.N) : Fin 4 := ⟨t.val % 4, Nat.mod_lt _ (by decide)⟩

/-- The block indices of the four windows and the offsets of the adjacency load, decided over the 32 points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0
    ∧ k0_off1 (grid0.coords t) (0 : Fin 2) = 256 * (t.val % 4) ∧ k0_off1 (grid0.coords t) (1 : Fin 2) = 0 :=
  (by decide +kernel : ∀ t : Fin grid0.N, _)

theorem hz3 : (![0, 0, 0] : Fin 3 → Nat) = fun _ => 0 := funext fun a => by fin_cases a <;> rfl

section BlockReads

variable (V : (c : Dev nD) → (b : Ref sig .tc) → Buf (Elt Ideal) ((c : Thread nD τ).loc b))

/-- The query block at point `t`: the band's rows of the point's time step. -/
theorem read_query (c : Dev nD) (t : Fin cfg0.N) (r : Fin 256) (d : Fin 128) :
    (blk0 V c 0 t : FVec Ideal S1x256x128 .bf16) (ix3 (0 : Fin 1) r d)
      = (V c main_v0 : Cert.Spec.SX.Idx → EReal) (ix3 (stepAt t) (rowOf (bandAt t) r) d) := by
  obtain ⟨e0, e1, e2, -⟩ := idx_facts t
  show (V c main_v0 : Cert.Spec.SX.Idx → EReal) (((cfg0.win 0).blk t).view.emb (ix3 (0 : Fin 1) r d)) = _
  refine congrArg (V c main_v0 : Cert.Spec.SX.Idx → EReal) (funext fun a => Fin.ext ?_)
  match a with
  | ⟨0, _⟩ => show win0_0.index t (0 : Fin 3) * 1 + 1 * 0 = t.val / 4; omega
  | ⟨1, _⟩ => show win0_0.index t (1 : Fin 3) * 256 + 1 * r.val = 256 * (t.val % 4) + r.val; omega
  | ⟨2, _⟩ => show win0_0.index t (2 : Fin 3) * 128 + 1 * d.val = d.val; omega

/-- The key block at point `t`: all rows of the point's time step. -/
theorem read_keys (c : Dev nD) (t : Fin cfg0.N) (k : Fin 1024) (d : Fin 128) :
    (blk0 V c 1 t : FVec Ideal S1x1024x128 .bf16) (ix3 (0 : Fin 1) k d)
      = (V c main_v0 : Cert.Spec.SX.Idx → EReal) (ix3 (stepAt t) k d) := by
  obtain ⟨-, -, -, e0, e1, e2, -⟩ := idx_facts t
  show (V c main_v0 : Cert.Spec.SX.Idx → EReal) (((cfg0.win 1).blk t).view.emb (ix3 (0 : Fin 1) k d)) = _
  refine congrArg (V c main_v0 : Cert.Spec.SX.Idx → EReal) (funext fun a => Fin.ext ?_)
  match a with
  | ⟨0, _⟩ => show win0_1.index t (0 : Fin 3) * 1 + 1 * 0 = t.val / 4; omega
  | ⟨1, _⟩ => show win0_1.index t (1 : Fin 3) * 1024 + 1 * k.val = k.val; omega
  | ⟨2, _⟩ => show win0_1.index t (2 : Fin 3) * 128 + 1 * d.val = d.val; omega

/-- The adjacency band the body loads at point `t`: the band's rows of the whole matrix. -/
theorem read_band (c : Dev nD) (t : Fin cfg0.N) (r : Fin 256) (k : Fin 1024) :
    (View.ld (blk0 V c 2 t : IVec S1024x1024 32) (bandRect (grid0.coords t)) : IVec S256x1024 32) (ix2 r k)
      = (V c main_arg1 : Cert.Spec.SA.Idx → BitVec 32) (ix2 (rowOf (bandAt t) r) k) := by
  obtain ⟨-, -, -, -, -, -, e0, e1, -, -, -, o0, o1⟩ := idx_facts t
  show (V c main_arg1 : Cert.Spec.SA.Idx → BitVec 32) (((cfg0.win 2).blk t).view.emb ((bandRect (grid0.coords t)).idx (ix2 r k))) = _
  refine congrArg (V c main_arg1 : Cert.Spec.SA.Idx → BitVec 32) (funext fun a => Fin.ext ?_)
  match a with
  | ⟨0, _⟩ => show win0_2.index t (0 : Fin 2) * 1024 + 1 * (k0_off1 (grid0.coords t) (0 : Fin 2) + 1 * r.val) = 256 * (t.val % 4) + r.val; omega
  | ⟨1, _⟩ => show win0_2.index t (1 : Fin 2) * 1024 + 1 * (k0_off1 (grid0.coords t) (1 : Fin 2) + 1 * k.val) = k.val; omega

/-- So the three blocks at point `t` are what its time step and band read of the arrays. -/
theorem reads_at (c : Dev nD) (t : Fin cfg0.N) :
    Reads (V c main_v0) (V c main_arg1) (stepAt t) (bandAt t) (blk0 V c 0 t) (blk0 V c 1 t)
      (View.ld (blk0 V c 2 t) (bandRect (grid0.coords t))) :=
  ⟨read_query V c t, read_keys V c t, read_band V c t⟩

end BlockReads

/-! ## What a point writes back, the cover, the array -/

section Array

variable (V : (c : Dev nD) → (b : Ref sig .tc) → Buf (Elt Ideal) ((c : Thread nD τ).loc b))

/-- What point `t` writes back is its block of the specification's node features. -/
theorem flushed_eq (c : Dev nD) (t : Fin cfg0.N) :
    (attnDat (F := Ideal) V c).flushed 3 t
      = ((cfg0.win 3).blk t).view.read (Elt Ideal) (Cert.Spec.node (V c main_v0) (V c main_arg1)) := by
  show (cfg0.win 3).cut (grid0.coords t) ((attnDat (F := Ideal) V c).after 3 t) = _
  rw [attnDat_after3]
  unfold attnBlock
  rw [View.canon_unit_zero hz3]
  simp only [View.ld_unit_zero (S := S1x256x128) hz3, View.ld_unit_zero (S := S1x1024x128) hz3]
  obtain ⟨-, -, -, -, -, -, -, -, e0, e1, e2, -⟩ := idx_facts t
  funext y
  refine (pay_node (reads_at V c t) ((cfg0.win 3).xinj (grid0.coords t) y)).trans ?_
  have e : ((cfg0.win 3).blk t).view.emb y
      = ix3 (stepAt t) (rowOf (bandAt t) ⟨(y 1).val, (y 1).isLt⟩) (⟨(y 2).val, (y 2).isLt⟩ : Fin 128) := funext fun a => Fin.ext (by
    match a with
    | ⟨0, _⟩ =>
      show win0_3.index t (0 : Fin 3) * 1 + 1 * (y 0).val = t.val / 4
      have h0 : (y 0).val < 1 := (y 0).isLt
      omega
    | ⟨1, _⟩ => show win0_3.index t (1 : Fin 3) * 256 + 1 * (y 1).val = 256 * (t.val % 4) + (y 1).val; omega
    | ⟨2, _⟩ => show win0_3.index t (2 : Fin 3) * 128 + 1 * (y 2).val = (y 2).val; omega)
  exact (congrArg (Cert.Spec.node (V c main_v0) (V c main_arg1)) e).symm

/-- An index of the result array is in point `t`'s block iff each coordinate is in the block's range on its axis. -/
theorem mem_out_blk (t : Fin cfg0.N) (i : S8x1024x128.Idx) :
    i ∈ ((cfg0.win 3).blk t).view.set
      ↔ ∀ a : Fin 3, win0_3.index t a * S1x256x128.size a ≤ (i a).val ∧ (i a).val < win0_3.index t a * S1x256x128.size a + S1x256x128.size a := by
  show i ∈ ((View.whole main_v1).slice (win0_3.rect t)).set ↔ _
  rw [View.set_slice_whole, Rect.mem_set_unit]
  exact Iff.rfl

/-- Every index (step, node, channel) of the result array is in the block of point `4·step + node / 256`. -/
theorem out_cover (i : S8x1024x128.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 128 := (i 2).isLt
  obtain ⟨t, tv⟩ : ∃ t : Fin cfg0.N, t.val = 4 * (i 0).val + (i 1).val / 256 :=
    ⟨⟨4 * (i 0).val + (i 1).val / 256, lt_of_lt_of_eq (show 4 * (i 0).val + (i 1).val / 256 < 32 by omega) (show cfg0.N = 32 from N_0).symm⟩, rfl⟩
  obtain ⟨-, -, -, -, -, -, -, -, e0, e1, e2, -⟩ := idx_facts t
  refine ⟨t, flush0_3 t, ?_⟩
  rw [mem_out_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 128 ≤ (i 2).val ∧ (i 2).val < win0_3.index t (2 : Fin 3) * 128 + 128; omega

end Array

end Attn

open Attn

variable (V : (c : Dev nD) → (b : Ref sig .tc) → Buf (Elt Ideal) ((c : Thread nD τ).loc b))

/-- After all 32 grid points the result array holds the specification's node features of the entry contents. -/
theorem attn_value (c : Dev nD) :
    ((attnDat (F := Ideal) V c).arrAt 3 cfg0.N : Cert.Spec.SX.Idx → EReal) = Cert.Spec.node (V c main_v0) (V c main_arg1) :=
  (attnDat (F := Ideal) V c).arrAt_eq_of_cover 3 (Cert.Spec.node (V c main_v0) (V c main_arg1))
    (fun t _ => flushed_eq V c t) out_cover

end Cert.KernelIdeal.Hand

end
-- ==== Proof.KI.SpreadValue.lean ====
/-
  What the spreading call leaves in its result array, at the ideal instance: the specification's `spread` of the
  re-laid temporal scores the call is entered with.
-/
import proofs.«420913_j49830210568659_3_alg».proof.Proof.KI.Region1
import proofs.«420913_j49830210568659_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The two payloads at an index -/

/-- The first payload at an index: the logistic of the loaded vector's entry in the index's row, whatever the column. -/
theorem spread_pay1_at (v : Vec Ideal S1x1x1024x1 .f32) (p q : Fin 1024) :
    k1_pay1 v (ix2 p q) = Ideal.logistic (v (ix4 (0 : Fin 1) (0 : Fin 1) p (0 : Fin 1))) := by
  unfold k1_pay1
  refine (broadcastTo_apply _ _ (ix2 p q) (ix2 p (0 : Fin 1)) ?_).trans ?_
  · intro a
    match a with
    | ⟨0, _⟩ => rfl
    | ⟨1, _⟩ => rfl
  rw [shapeCast_self]
  show Ideal.logistic (shapeCast (α := EReal) S1024x1 v shapeCasts_S1x1x1024x1_S1024x1 (ix2 p (0 : Fin 1))) = _
  refine congrArg Ideal.logistic (shapeCast_apply _ _ _ _ ?_)
  rw [Shape.rowMajor_val_four, Shape.rowMajor_val_two]
  show ((0 * 1 + 0) * 1024 + p.val) * 1 + 0 = p.val * 1 + 0
  omega

/-- The second payload at an index: the same function of the second loaded vector. -/
theorem spread_pay2_at (v : Vec Ideal S1x1x1024x1 .f32) (p q : Fin 1024) :
    k1_pay2 v (ix2 p q) = Ideal.logistic (v (ix4 (0 : Fin 1) (0 : Fin 1) p (0 : Fin 1))) := by
  unfold k1_pay2
  refine (broadcastTo_apply _ _ (ix2 p q) (ix2 p (0 : Fin 1)) ?_).trans ?_
  · intro a
    match a with
    | ⟨0, _⟩ => rfl
    | ⟨1, _⟩ => rfl
  rw [shapeCast_self]
  show Ideal.logistic (shapeCast (α := EReal) S1024x1 v shapeCasts_S1x1x1024x1_S1024x1 (ix2 p (0 : Fin 1))) = _
  refine congrArg Ideal.logistic (shapeCast_apply _ _ _ _ ?_)
  rw [Shape.rowMajor_val_four, Shape.rowMajor_val_two]
  show ((0 * 1 + 0) * 1024 + p.val) * 1 + 0 = p.val * 1 + 0
  omega

/-! ## The output block as one function of the input block -/

/-- What the body leaves in the output block, index by index: row `r` of the block holds, in every column, the logistic of
    entry `r % 1024` of vector `r / 1024` of the input block. -/
def spreadBlockFn (x : Vec Ideal S2x1x1024x1 .f32) : Vec Ideal S2048x1024 .f32 := fun y =>
  Ideal.logistic (x (ix4 (⟨(y 0).val / 1024, by have := (y 0).isLt; change (y 0).val < 2048 at this; omega⟩ : Fin 2) (0 : Fin 1)
    (⟨(y 0).val % 1024, Nat.mod_lt _ (by norm_num)⟩ : Fin 1024) (0 : Fin 1)))

theorem spreadBlock_eq (x : Vec Ideal S2x1x1024x1 .f32) : spreadBlock x = spreadBlockFn x := by
  funext y
  unfold spreadBlock
  refine View.canon_apply_of_pieces (Val := Elt Ideal) (spreadBlockFn x) _ ?_ y (spreadBlock_cover _ _ y)
  intro pc hpc
  simp only [List.mem_cons, List.not_mem_nil, or_false] at hpc
  rcases hpc with rfl | rfl
  · intro z
    obtain ⟨p, q, rfl⟩ : ∃ (p q : Fin 1024), z = ix2 p q := ⟨z 0, z 1, eq_ix2 z⟩
    refine (spread_pay2_at _ p q).trans ?_
    unfold spreadBlockFn
    refine congrArg Ideal.logistic (congrArg x (funext fun a => Fin.ext ?_))
    have hp : p.val < 1024 := p.isLt
    match a with
    | ⟨0, _⟩ => show 1 + 1 * 0 = (1024 + 1 * p.val) / 1024; omega
    | ⟨1, _⟩ => rfl
    | ⟨2, _⟩ => show 0 + 1 * p.val = (1024 + 1 * p.val) % 1024; omega
    | ⟨3, _⟩ => rfl
  · intro z
    obtain ⟨p, q, rfl⟩ : ∃ (p q : Fin 1024), z = ix2 p q := ⟨z 0, z 1, eq_ix2 z⟩
    refine (spread_pay1_at _ p q).trans ?_
    unfold spreadBlockFn
    refine congrArg Ideal.logistic (congrArg x (funext fun a => Fin.ext ?_))
    have hp : p.val < 1024 := p.isLt
    match a with
    | ⟨0, _⟩ => show 0 + 1 * 0 = (0 + 1 * p.val) / 1024; omega
    | ⟨1, _⟩ => rfl
    | ⟨2, _⟩ => show 0 + 1 * p.val = (0 + 1 * p.val) % 1024; omega
    | ⟨3, _⟩ => rfl

/-! ## What a point writes back -/

/-- The two windows' index maps over the grid: the input's block index is the output's on the first two axes and zero on
    the last two, and the output's stays in its range. -/
theorem spread_idx_facts : ∀ t : Fin cfg1.N,
    win1_0.index t (0 : Fin 4) = win1_1.index t (0 : Fin 2)
    ∧ win1_0.index t (1 : Fin 4) = win1_1.index t (1 : Fin 2)
    ∧ win1_0.index t (2 : Fin 4) = 0
    ∧ win1_0.index t (3 : Fin 4) = 0
    ∧ win1_1.index t (0 : Fin 2) ≤ 3
    ∧ win1_1.index t (1 : Fin 2) ≤ 7 :=
  (by decide +kernel : ∀ t : Fin grid1.N, _)

/-- Every block of the result array is some point's. -/
theorem spread_idx_onto : ∀ (b0 : Fin 4) (b1 : Fin 8), ∃ t : Fin cfg1.N, win1_1.index t = ![b0.val, b1.val] :=
  (by decide +kernel : ∀ (b0 : Fin 4) (b1 : Fin 8), ∃ t : Fin grid1.N, win1_1.index t = ![b0.val, b1.val])

/-- What point `t` writes back is its block of `spread` of the array the call read. -/
theorem spread_flushed (c : Dev nD) (t : Fin cfg1.N) :
    (spreadDat (F := Ideal) V c).flushed 1 t
      = ((cfg1.win 1).blk t).view.read (Elt Ideal) (Cert.Spec.spread (V c main_v7)) := by
  show (cfg1.win 1).cut (grid1.coords t) ((spreadDat (F := Ideal) V c).after 1 t) = _
  rw [spreadDat_after1, spreadBlock_eq]
  obtain ⟨e0, e1, e2, e3, e4, e5⟩ := spread_idx_facts t
  funext j
  refine congrArg Ideal.logistic ?_
  unfold blk1
  rw [View.read_apply]
  show V c main_v7 _ = V c main_v7 _
  refine congrArg (V c main_v7) (funext fun a => Fin.ext ?_)
  have hj0 : (j 0).val < 2048 := (j 0).isLt
  have hj1 : (j 1).val < 1024 := (j 1).isLt
  match a with
  | ⟨0, _⟩ =>
    show win1_0.index t (0 : Fin 4) * 2 + 1 * ((j 0).val / 1024) = (win1_1.index t (0 : Fin 2) * 2048 + 1 * (j 0).val) / 1024
    omega
  | ⟨1, _⟩ =>
    show win1_0.index t (1 : Fin 4) * 1 + 1 * 0 = (win1_1.index t (1 : Fin 2) * 1024 + 1 * (j 1).val) / 1024
    omega
  | ⟨2, _⟩ =>
    show win1_0.index t (2 : Fin 4) * 1024 + 1 * ((j 0).val % 1024) = (win1_1.index t (0 : Fin 2) * 2048 + 1 * (j 0).val) % 1024
    omega
  | ⟨3, _⟩ =>
    show win1_0.index t (3 : Fin 4) * 1 + 1 * 0 = 0
    omega

/-! ## From blocks to the array -/

/-- An index of the result array is in point `t`'s block iff each coordinate is in the block's range on its axis. -/
theorem spread_mem_blk (t : Fin cfg1.N) (i : S8192x8192.Idx) :
    i ∈ ((cfg1.win 1).blk t).view.set ↔ ∀ a : Fin 2, win1_1.index t a * S2048x1024.size a ≤ (i a).val
      ∧ (i a).val < win1_1.index t a * S2048x1024.size a + S2048x1024.size a := by
  show i ∈ ((View.whole main_v8).slice (win1_1.rect t)).set ↔ _
  rw [View.set_slice_whole, Rect.mem_set_unit]
  exact Iff.rfl

/-- The blocks tile the result array: entry `(r, q)` is in the block of the point whose block index is `(r / 2048, q / 1024)`. -/
theorem spread_cover (i : S8192x8192.Idx) :
    ∃ t : Fin cfg1.N, (cfg1.win 1).flush t = true ∧ i ∈ ((cfg1.win 1).blk t).view.set := by
  have hi0 : (i 0).val < 8192 := (i 0).isLt
  have hi1 : (i 1).val < 8192 := (i 1).isLt
  obtain ⟨t, ht⟩ := spread_idx_onto ⟨(i 0).val / 2048, by omega⟩ ⟨(i 1).val / 1024, by omega⟩
  have q0 : win1_1.index t (0 : Fin 2) = (i 0).val / 2048 := congrFun ht 0
  have q1 : win1_1.index t (1 : Fin 2) = (i 1).val / 1024 := congrFun ht 1
  refine ⟨t, flush1_1 t, ?_⟩
  rw [spread_mem_blk]
  intro a
  match a with
  | ⟨0, _⟩ =>
    show win1_1.index t (0 : Fin 2) * 2048 ≤ (i 0).val ∧ (i 0).val < win1_1.index t (0 : Fin 2) * 2048 + 2048
    omega
  | ⟨1, _⟩ =>
    show win1_1.index t (1 : Fin 2) * 1024 ≤ (i 1).val ∧ (i 1).val < win1_1.index t (1 : Fin 2) * 1024 + 1024
    omega

/-- After all 32 grid points the result array holds `spread` of the array the call read. -/
theorem spread_value (c : Dev nD) :
    ((spreadDat (F := Ideal) V c).arrAt 1 cfg1.N : Cert.Spec.SO.Idx → EReal) = Cert.Spec.spread (V c main_v7) :=
  (spreadDat (F := Ideal) V c).arrAt_eq_of_cover 1 (Cert.Spec.spread (V c main_v7)) (fun t _ => spread_flushed V c t) spread_cover

end Cert.KernelIdeal.Hand

end
-- ==== Proof.Ref.Node.lean ====
/-
  The reference's node features (its value after the second batched matrix product) are the specification's.
-/
import proofs.«420913_j49830210568659_3_alg».proof.Proof.Gen.ReferenceIdeal.Read
import proofs.«420913_j49830210568659_3_alg».proof.Proof.Spec
import Idealize.ShloMosaic.Lib.ValueIdx
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

/-! ## The scores

Each stage of the reference is read at an index built from its coordinates: time step `t`, attending node `n`,
attended node `k`, channel `d`. -/

/-- The scaled inner product of the feature rows of nodes `n` and `k` at time step `t`. -/
theorem ref_score (x0 : (⟨S8x1024x128, .f32⟩ : BufTy).Contents (Elt Ideal)) (t : Fin 8) (n k : Fin 1024) :
    val_main_v2 (F := Ideal) x0 (ix3 t n k) = Cert.Spec.score x0 t n k := by
  have el : ∀ d : Fin 128, lidx_main_v0 (ix3 t n k) d = ix3 t n d := fun d => funext fun a => Fin.ext (by
    match a with | ⟨0, _⟩ => rfl | ⟨1, _⟩ => rfl | ⟨2, _⟩ => rfl)
  have er : ∀ d : Fin 128, ridx_main_v0 (ix3 t n k) d = ix3 t k d := fun d => funext fun a => Fin.ext (by
    match a with | ⟨0, _⟩ => rfl | ⟨1, _⟩ => rfl | ⟨2, _⟩ => rfl)
  rw [val_main_v2_apply, val_main_v0_apply, val_main_v1_apply, val_main_cst_apply]
  simp only [el, er]
  rfl

/-- Where the adjacency word is positive the score stands; elsewhere the fill does. -/
theorem ref_masked (x0 : (⟨S8x1024x128, .f32⟩ : BufTy).Contents (Elt Ideal)) (x1 : (⟨S1024x1024, .i32⟩ : BufTy).Contents (Elt Ideal))
    (t : Fin 8) (n k : Fin 1024) :
    val_main_v6 (F := Ideal) x0 x1 (ix3 t n k) = Cert.Spec.masked x0 x1 t n k := by
  have e : idx_main_v3 (idx_main_call0_v0 (ix3 t n k)) = ix2 n k := funext fun a => Fin.ext (by
    match a with | ⟨0, _⟩ => rfl | ⟨1, _⟩ => rfl)
  rw [val_main_v6_apply, val_main_call0_v0_apply, val_main_v5_apply, val_main_v3_apply, val_main_v4_apply,
    val_main_c_apply, val_main_call0_v1_apply, val_main_cst_0_apply, ref_score, e]
  rfl

/-! ## The row maximum

The reference folds `max` over the attended node from `−∞` and then takes the maximum with `−∞` once more, which
changes nothing. -/

/-- The word both programs print for `−∞` is the bottom of the extended reals. -/
theorem botC_eq_bot : Ideal.ofBits .f32 0xFF800000#32 = (⊥ : EReal) := by
  simp [Ideal.ofBits, Ideal.ieee]

/-- Inserting coordinate `k` on the last axis of the row index `(t, n)` gives `(t, n, k)`. -/
theorem lift_row (h : S8x1024x1024.Reduces [2] S8x1024) (t : Fin 8) (n k : Fin 1024) :
    h.lift (ix2 t n) k = ix3 t n k := funext fun a => Fin.ext (by
  match a with | ⟨0, _⟩ => rfl | ⟨1, _⟩ => rfl | ⟨2, _⟩ => rfl)

/-- The maximum of row `n` of the masked scores at time step `t`. -/
theorem ref_rowMax (x0 : (⟨S8x1024x128, .f32⟩ : BufTy).Contents (Elt Ideal)) (x1 : (⟨S1024x1024, .i32⟩ : BufTy).Contents (Elt Ideal))
    (t : Fin 8) (n : Fin 1024) :
    val_main_v9 (F := Ideal) x0 x1 (ix2 t n) = Cert.Spec.rowMax x0 x1 t n := by
  have h : S8x1024x1024.Reduces [2] S8x1024 := by decide
  have hf : (val_main_v6 (F := Ideal) x0 x1 ∘ h.lift (ix2 t n)) = fun k : Fin 1024 => Cert.Spec.masked x0 x1 t n k :=
    funext fun (k : Fin 1024) =>
      (congrArg (val_main_v6 (F := Ideal) x0 x1) (lift_row h t n k)).trans (ref_masked x0 x1 t n k)
  rw [val_main_v9_apply, val_main_v8_apply, val_main_cst_2_apply]
  unfold val_main_v7
  rw [Host.reduce_eq_fold_single (FloatOps.maximumf (F := Ideal) (φ := .f32)) (val_main_v6 (F := Ideal) x0 x1)
    (val_main_cst_1 (F := Ideal)) reducesTo_S8x1024x1024_S8x1024_d2 h h_S_ (ix2 t n), hf, val_main_cst_1_apply]
  show max (Ideal.ofBits .f32 0xFF800000#32)
      (Finset.univ.fold max (Ideal.ofBits .f32 0xFF800000#32) fun k : Fin 1024 => Cert.Spec.masked x0 x1 t n k) = _
  rw [max_eq_right (by rw [botC_eq_bot]; exact bot_le)]
  rfl

/-! ## The softmax and the weighted sum -/

/-- The exponential of a masked score less its row's maximum. -/
theorem ref_expo (x0 : (⟨S8x1024x128, .f32⟩ : BufTy).Contents (Elt Ideal)) (x1 : (⟨S1024x1024, .i32⟩ : BufTy).Contents (Elt Ideal))
    (t : Fin 8) (n k : Fin 1024) :
    val_main_v13 (F := Ideal) x0 x1 (ix3 t n k) = Cert.Spec.expo x0 x1 t n k := by
  have e : idx_main_v10 (idx_main_v11 (ix3 t n k)) = ix2 t n := funext fun a => Fin.ext (by
    match a with | ⟨0, _⟩ => rfl | ⟨1, _⟩ => rfl)
  rw [val_main_v13_apply, val_main_v12_apply, val_main_v11_apply, val_main_v10_apply, e, ref_masked, ref_rowMax]
  rfl

/-- The sum of a row's exponentials; the sum starts from the zero word. -/
theorem ref_denom (x0 : (⟨S8x1024x128, .f32⟩ : BufTy).Contents (Elt Ideal)) (x1 : (⟨S1024x1024, .i32⟩ : BufTy).Contents (Elt Ideal))
    (t : Fin 8) (n : Fin 1024) :
    val_main_v14 (F := Ideal) x0 x1 (ix2 t n) = Cert.Spec.denom x0 x1 t n := by
  have e : ∀ k : Fin 1024, idx_main_v14 (ix2 t n) k = ix3 t n k := fun k => funext fun a => Fin.ext (by
    match a with | ⟨0, _⟩ => rfl | ⟨1, _⟩ => rfl | ⟨2, _⟩ => rfl)
  rw [val_main_v14_apply, val_main_cst_3_apply]
  simp only [e, ref_expo, Ideal.ofBits_def, Ideal.ofBits_zero_f32, zero_add]
  rfl

/-- An exponential divided by its row's sum. -/
theorem ref_weight (x0 : (⟨S8x1024x128, .f32⟩ : BufTy).Contents (Elt Ideal)) (x1 : (⟨S1024x1024, .i32⟩ : BufTy).Contents (Elt Ideal))
    (t : Fin 8) (n k : Fin 1024) :
    val_main_v17 (F := Ideal) x0 x1 (ix3 t n k) = Cert.Spec.weight x0 x1 t n k := by
  have e : idx_main_v15 (idx_main_v16 (ix3 t n k)) = ix2 t n := funext fun a => Fin.ext (by
    match a with | ⟨0, _⟩ => rfl | ⟨1, _⟩ => rfl)
  rw [val_main_v17_apply, val_main_v16_apply, val_main_v15_apply, e, ref_expo, ref_denom]
  rfl

/-- Node `n`'s new feature in channel `d`: the weights of row `n` against the feature rows. -/
theorem ref_nodeAt (x0 : (⟨S8x1024x128, .f32⟩ : BufTy).Contents (Elt Ideal)) (x1 : (⟨S1024x1024, .i32⟩ : BufTy).Contents (Elt Ideal))
    (t : Fin 8) (n : Fin 1024) (d : Fin 128) :
    val_main_v18 (F := Ideal) x0 x1 (ix3 t n d) = Cert.Spec.node x0 x1 (ix3 t n d) := by
  have el : ∀ k : Fin 1024, lidx_main_v18 (ix3 t n d) k = ix3 t n k := fun k => funext fun a => Fin.ext (by
    match a with | ⟨0, _⟩ => rfl | ⟨1, _⟩ => rfl | ⟨2, _⟩ => rfl)
  have er : ∀ k : Fin 1024, ridx_main_v18 (ix3 t n d) k = ix3 t k d := fun k => funext fun a => Fin.ext (by
    match a with | ⟨0, _⟩ => rfl | ⟨1, _⟩ => rfl | ⟨2, _⟩ => rfl)
  rw [val_main_v18_apply, Cert.Spec.node_apply]
  simp only [el, er, ref_weight]
  rfl

theorem ref_node (x0 : (⟨S8x1024x128, .f32⟩ : BufTy).Contents (Elt Ideal)) (x1 : (⟨S1024x1024, .i32⟩ : BufTy).Contents (Elt Ideal)) :
    (val_main_v18 (F := Ideal) x0 x1 : Cert.Spec.SX.Idx → EReal) = Cert.Spec.node x0 x1 := by
  funext i
  obtain ⟨t, n, d, rfl⟩ : ∃ t n d, i = ix3 t n d := ⟨i 0, i 1, i 2, eq_ix3 i⟩
  exact ref_nodeAt x0 x1 t n d

end Cert.ReferenceIdeal.RefValue

end
-- ==== Proof.Ref.Tail.lean ====
/-
  The reference's result is the specification's `tail` of its temporal scores (its value after the multiplication by
  the scale): the negation, exponential, sum with one and quotient are the logistic function, and the two broadcasts,
  the transposition and the reshape only move entries.
-/
import proofs.«420913_j49830210568659_3_alg».proof.Proof.Gen.ReferenceIdeal.Read
import proofs.«420913_j49830210568659_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

/-- The f32 word `0x3F800000` is the number one. -/
theorem ofBits_one_f32 : Ideal.ofBits .f32 0x3F800000#32 = 1 := by
  simp [Ideal.ofBits, Ideal.ieee, -EReal.coe_mul]; norm_num

/-- Where the result's entry `(r, q)` comes from: the reshape splits the row into `(r / 1024, r % 1024)` and the column
    into `(q / 1024, q % 1024)`, the transposition swaps the outer two of the four coordinates, the two broadcasts drop
    the last one and keep the rest, so the entry read is the one at node `r % 1024`, steps `q / 1024` and `r / 1024`. -/
theorem idx_tail (i : Cert.Spec.SO.Idx) :
    idx_main_v29 (idx_main_v30 (idx_main_v31 (idx_main_v32 i)))
      = ix3 (Cert.Spec.nodeOf (i 0)) (Cert.Spec.stepOf (i 1)) (Cert.Spec.stepOf (i 0)) := by
  have h0 : (i 0).val < 8192 := (i 0).isLt
  have h1 : (i 1).val < 8192 := (i 1).isLt
  funext a
  refine Fin.ext ?_
  match a with
  | ⟨0, _⟩ =>
    show ((i 0).val * 8192 + (i 1).val) / 8192 % 1024 = (i 0).val % 1024
    omega
  | ⟨1, _⟩ =>
    show ((i 0).val * 8192 + (i 1).val) / 1024 % 8 = (i 1).val / 1024
    omega
  | ⟨2, _⟩ =>
    show ((i 0).val * 8192 + (i 1).val) / 8388608 = (i 0).val / 1024
    omega

theorem ref_tail (x0 : (⟨S8x1024x128, .f32⟩ : BufTy).Contents (Elt Ideal)) (x1 : (⟨S1024x1024, .i32⟩ : BufTy).Contents (Elt Ideal)) :
    (val_main_v32 (F := Ideal) x0 x1 : Cert.Spec.SO.Idx → EReal) = Cert.Spec.tail (val_main_v22 (F := Ideal) x0 x1) := by
  funext i
  rw [val_main_v32_apply, val_main_v31_apply, val_main_v30_apply, val_main_v29_apply, idx_tail,
    val_main_v28_apply, val_main_v27_apply, val_main_cst_6_apply, val_main_v26_apply, val_main_v25_apply,
    val_main_cst_5_apply, val_main_v24_apply, val_main_v23_apply]
  simp only [Ideal.ofBits_def, ofBits_one_f32, Ideal.hostDivf_def, Ideal.addf_def, Ideal.hostUnary_exp_def,
    Ideal.hostNegf_def, Ideal.negf_def]
  rfl

end Cert.ReferenceIdeal.RefValue

end
-- ==== Proof.lean ====
/-
  The certificate of the graph-attention kernel against its jnp reference.

  Both programs take the features `x` (8 time steps × 1024 nodes × 128 channels) and the adjacency words `a`
  (1024 × 1024).  The kernel rounds `x` to bf16, runs an attention call tiled over (time step, block of 256 query
  rows), applies three host operations, re-lays the result and runs a second call that applies the logistic function
  and spreads each value across 1024 columns; the reference computes the same thing with whole-array operations.

  Over the extended reals the rounding is the identity, and every operation of the attention call is the reference's:
  the same inner products and scale word, the same select on `a[n, k] > 0` against the same finite fill word, the row
  maximum folded from −∞ (the reference's extra maximum with −∞ changes nothing), the same exponential, row sum and
  quotient, the same weighted sum.  So the attention call's result array and the reference's node features are one
  function of `(x, a)`, index by index (`Cert.Spec.node`).  From the node features both programs compute the temporal
  scores by the SAME three host operations (`tscores`).  Finally the kernel's re-laying and spreading call, and the
  reference's negate–exponential–add–divide followed by two broadcasts, a transposition and a reshape, both put the
  logistic of `y[j, t, s]` at row `1024·s + j`, column `1024·t + i` (`Cert.Spec.tail`).  No law of arithmetic beyond
  the definitions is used, so the precondition (finite features) is never opened.

  The three frames: the reference is a host program, its run is read back operation by operation; each kernel program
  runs its two calls through the pipeline's rule, the first call's two windows onto the bf16 features sharing that
  buffer half and half.  The idealization rewrote nothing, so `preserves` is trivial.
-/
import proofs.«420913_j49830210568659_3_alg».proof.Defs
import proofs.«420913_j49830210568659_3_alg».proof.Proof.Gen.Kernel
import proofs.«420913_j49830210568659_3_alg».proof.Proof.Gen.KernelIdeal
import proofs.«420913_j49830210568659_3_alg».proof.Proof.Gen.ReferenceIdeal
import proofs.«420913_j49830210568659_3_alg».proof.Proof.Gen.Pre_finite_inputs
import proofs.«420913_j49830210568659_3_alg».proof.Proof.Gen.ReferenceIdeal.Run
import proofs.«420913_j49830210568659_3_alg».proof.Proof.Gen.ReferenceIdeal.Read
import proofs.«420913_j49830210568659_3_alg».proof.Proof.K.Run
import proofs.«420913_j49830210568659_3_alg».proof.Proof.KI.Run
import proofs.«420913_j49830210568659_3_alg».proof.Proof.KI.Host
import proofs.«420913_j49830210568659_3_alg».proof.Proof.KI.AttnValue
import proofs.«420913_j49830210568659_3_alg».proof.Proof.KI.SpreadValue
import proofs.«420913_j49830210568659_3_alg».proof.Proof.Ref.Node
import proofs.«420913_j49830210568659_3_alg».proof.Proof.Ref.Tail
import Idealize.ShloMosaic.Adequacy
import Idealize.ShloMosaic.Init

set_option maxRecDepth 16384

noncomputable section

namespace Cert.Proof

open Idealize.ShloMosaic Idealize.ShloMosaic.TcCoe Idealize.SL.Sem

/-! ## The two programs' values -/

/-- The reference's temporal scores are the kernel's three host operations applied to the reference's node features:
    the two programs print the same transposition, batched inner product and scaling. -/
theorem ref_scores (x0 : (⟨Cert.ReferenceIdeal.S8x1024x128, .f32⟩ : BufTy).Contents (Elt Ideal))
    (x1 : (⟨Cert.ReferenceIdeal.S1024x1024, .i32⟩ : BufTy).Contents (Elt Ideal)) :
    Cert.ReferenceIdeal.Read.val_main_v22 (F := Ideal) x0 x1
      = Cert.KernelIdeal.Hand.tscores (Cert.ReferenceIdeal.Read.val_main_v18 (F := Ideal) x0 x1) := rfl

/-- What both programs leave in their result array, from the launch contents of the two arguments. -/
def result (x : Cert.Spec.SX.Idx → EReal) (a : Cert.Spec.SA.Idx → BitVec 32) : Cert.Spec.SO.Idx → EReal :=
  Cert.Spec.tail (Cert.KernelIdeal.Hand.tscores (Cert.Spec.node x a))

/-- The kernel's result array after its run. -/
theorem kernel_result (m : (ℓ : Loc Cert.KernelIdeal.nD Cert.KernelIdeal.τ Cert.KernelIdeal.sig) → Buf (Elt Ideal) ℓ) (c : Dev Cert.KernelIdeal.nD) :
    ((Cert.KernelIdeal.Hand.spreadDat (Cert.KernelIdeal.Hand.spreadIn m) c).arrAt 1 Cert.KernelIdeal.cfg1.N : Cert.Spec.SO.Idx → EReal)
      = result (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [Cert.KernelIdeal.Hand.spread_value, Cert.KernelIdeal.Hand.spreadIn_scores, Cert.Spec.spread_relay,
    Cert.KernelIdeal.Hand.attnOut_result, Cert.KernelIdeal.Hand.attn_value, Cert.KernelIdeal.Hand.attnIn_features,
    Cert.KernelIdeal.Hand.attnIn_adj]
  rfl

/-- The reference's result after its run. -/
theorem reference_result (x0 : (⟨Cert.ReferenceIdeal.S8x1024x128, .f32⟩ : BufTy).Contents (Elt Ideal))
    (x1 : (⟨Cert.ReferenceIdeal.S1024x1024, .i32⟩ : BufTy).Contents (Elt Ideal)) :
    (Cert.ReferenceIdeal.Read.val_main_v32 (F := Ideal) x0 x1 : Cert.Spec.SO.Idx → EReal) = result x0 x1 := by
  rw [Cert.ReferenceIdeal.RefValue.ref_tail, ref_scores, Cert.ReferenceIdeal.RefValue.ref_node]
  rfl

/-! ## The claims -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with `result` of them in their result array. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c => ⟨(h c).1.trans (kernel_result m c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v32_eq, (hagree c).1, (hagree c).2]
    exact reference_result _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
